-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S131072x256 : Shape := ⟨2, ![131072, 256]⟩
abbrev S131072x3x256 : Shape := ⟨3, ![131072, 3, 256]⟩
abbrev S131072 : Shape := ⟨1, ![131072]⟩
abbrev S256x384 : Shape := ⟨2, ![256, 384]⟩
abbrev S512x512 : Shape := ⟨2, ![512, 512]⟩
abbrev S512 : Shape := ⟨1, ![512]⟩
abbrev S512x256 : Shape := ⟨2, ![512, 256]⟩
abbrev S256 : Shape := ⟨1, ![256]⟩
abbrev S128x129 : Shape := ⟨2, ![128, 129]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S131072x3x256 : S_.BroadcastsInDim S131072x3x256 (![] : Fin 0 → Fin S131072x3x256.rank)
  reducesTo_S131072x3x256_S_d0_1_2 : S131072x3x256.ReducesTo [0, 1, 2] S_
  bcast_S_S256x384 : S_.BroadcastsInDim S256x384 (![] : Fin 0 → Fin S256x384.rank)
  reducesTo_S256x384_S_d0_1 : S256x384.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S128x129 : S_.BroadcastsInDim S128x129 (![] : Fin 0 → Fin S128x129.rank)
  reducesTo_S128x129_S_d0_1 : S128x129.ReducesTo [0, 1] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S256x2 .f32) (main_arg13 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg12
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S256 .f32) (main_arg9 : FVec F S128x129 .f32) (main_arg10 : FVec F S256x256 .f32) (main_arg11 : FVec F S256 .f32) (main_arg12 : FVec F S256x2 .f32) (main_arg13 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x129 .f32 := Host.absf main_arg9
  let main_cst_14 : FVec F S_ .f32 := constant S_ .f32 0x7F800000#32
  let main_v40 : FVec F S128x129 .f32 := broadcastInDim S128x129 ![] bcast_S_S128x129 main_cst_14
  let main_v41 : IVec S128x129 1 := cmpf .olt main_v39 main_v40
  let main_c_15 : IVec S_ 1 := constantI S_ 1 1#1
  let main_v42 : IVec S_ 1 := (fun x v => Host.reduce IntOp.andi x v reducesTo_S128x129_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S512x512 .f32) (main_arg6 : FVec F S512 .f32) (main_arg7 : FVec F S512x256 .f32) (main_arg8 : FVec F S256 .f32) (main_arg9 : FVec F S128x129 .f32) (main_arg10 : FVec F S256x256 .f32) (main_arg11 : FVec F S256 .f32) (main_arg12 : FVec F S256x2 .f32) (main_arg13 : FVec F S2 .f32) (main_v13 : IVec S_ 1) (main_v16 : IVec S256x384 1) : IVec S_ 1 :=
  let main_c_5 : IVec S_ 1 := constantI S_ 1 1#1
  let main_v17 : IVec S_ 1 := (fun x v => Host.reduce IntOp.andi x v reducesTo_S256x384_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S131072x3 .f32) (main_arg1 : FVec F S131072x256 .f32) (main_arg2 : FVec F S131072x3x256 .f32) (main_arg3 : IVec S131072 32) (main_arg4 : FVec F S256x384 .f32) (main_arg5 : FVec F S512x512 .f32) (main_arg6 : FVec F S512 .f32) (main_arg7 : FVec F S512x256 .f32) (main_arg8 : FVec F S256 .f32) (main_arg9 : FVec F S128x129 .f32) (main_arg10 : FVec F S256x256 .f32) (main_arg11 : FVec F S256 .f32) (main_arg12 : FVec F S256x2 .f32) (main_arg13 : FVec F S2 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x3x256 .f32 := Host.absf main_arg2
  let main_cst_2 : FVec F S_ .f32 := constant S_ .f32 0x7F800000#32
  let main_v10 : FVec F S131072x3x256 .f32 := broadcastInDim S131072x3x256 ![] bcast_S_S131072x3x256 main_cst_2
  let main_v11 : IVec S131072x3x256 1 := cmpf .olt main_v9 main_v10
  let main_c_3 : IVec S_ 1 := constantI S_ 1 1#1
  let main_v12 : IVec S_ 1 := (fun x v => Host.reduce IntOp.andi x v reducesTo_S131072x3x256_S_d0_1_2 h_S_) main_v11 main_c_3
  let main_v13 : IVec S_ 1 := andi main_v8 main_v12
  let main_v14 : FVec F S256x384 .f32 := Host.absf main_arg4
  let main_cst_4 : FVec F S_ .f32 := constant S_ .f32 0x7F800000#32
  let main_v15 : FVec F S256x384 .f32 := broadcastInDim S256x384 ![] bcast_S_S256x384 main_cst_4
  let main_v16 : IVec S256x384 1 := cmpf .olt main_v14 main_v15
  fn_part1 (F := F) main_arg5 main_arg6 main_arg7 main_arg8 main_arg9 main_arg10 main_arg11 main_arg12 main_arg13 main_v13 main_v16
-- ==== Kernel.lean ====
abbrev S131072x3 : Shape := ⟨2, ![131072, 3]⟩
abbrev S131072x256 : Shape := ⟨2, ![131072, 256]⟩
abbrev S131072x3x256 : Shape := ⟨3, ![131072, 3, 256]⟩
abbrev S131072 : Shape := ⟨1, ![131072]⟩
abbrev S256x384 : Shape := ⟨2, ![256, 384]⟩
abbrev S512x512 : Shape := ⟨2, ![512, 512]⟩
abbrev S512 : Shape := ⟨1, ![512]⟩
abbrev S512x256 : Shape := ⟨2, ![512, 256]⟩
abbrev S256 : Shape := ⟨1, ![256]⟩
abbrev S128x129 : Shape := ⟨2, ![128, 129]⟩
abbrev S256x256 : Shape := ⟨2, ![256, 256]⟩
abbrev S256x2 : Shape := ⟨2, ![256, 2]⟩
abbrev S2 : Shape := ⟨1, ![2]⟩
abbrev S512x3x256 : Shape := ⟨3, ![512, 3, 256]⟩
abbrev S512x3 : Shape := ⟨2, ![512, 3]⟩
abbrev S512x1x256 : Shape := ⟨3, ![512, 1, 256]⟩
abbrev S512x384 : Shape := ⟨2, ![512, 384]⟩
abbrev S512x128 : Shape := ⟨2, ![512, 128]⟩
abbrev S1x512 : Shape := ⟨2, ![1, 512]⟩
abbrev S1x256 : Shape := ⟨2, ![1, 256]⟩
abbrev S512x129 : Shape := ⟨2, ![512, 129]⟩
abbrev S512x1 : Shape := ⟨2, ![512, 1]⟩
abbrev S512x2 : Shape := ⟨2, ![512, 2]⟩
abbrev S1x2 : Shape := ⟨2, ![1, 2]⟩
abbrev S_ : Shape := ⟨0, ![]⟩
abbrev S2048x3 : Shape := ⟨2, ![2048, 3]⟩
abbrev S131072x1 : Shape := ⟨2, ![131072, 1]⟩
abbrev S2048 : Shape := ⟨1, ![2048]⟩
abbrev S2048x1 : Shape := ⟨2, ![2048, 1]⟩

abbrev nBuf : Space → Nat
  | .hbm => 30
  | .vmem => 18
  | .smem => 0
  | _ => 0

abbrev bufTy : (tb : Table) → Fin (tcTables nBuf tb) → BufTy
  | .hbm, ⟨0, _⟩ => ⟨S131072x3, .f32⟩
  | .hbm, ⟨1, _⟩ => ⟨S131072x256, .f32⟩
  | .hbm, ⟨2, _⟩ => ⟨S131072x3x256, .f32⟩
  | .hbm, ⟨3, _⟩ => ⟨S131072, .i32⟩
  | .hbm, ⟨4, _⟩ => ⟨S256x384, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S128x129, .f32⟩
  | .hbm, ⟨10, _⟩ => ⟨S256x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S131072x3, .f32⟩
  | .hbm, ⟨15, _⟩ => ⟨S_, .f32⟩
  | .hbm, ⟨16, _⟩ => ⟨S2048x3, .f32⟩
  | .hbm, ⟨17, _⟩ => ⟨S131072x1, .i32⟩
  | .hbm, ⟨18, _⟩ => ⟨S2048x3, .f32⟩
  | .hbm, ⟨19, _⟩ => ⟨S2048x3, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .local _ .vmem, ⟨0, _⟩ => ⟨S512x256, .f32⟩
  | .local _ .vmem, ⟨1, _⟩ => ⟨S512x256, .f32⟩
  | .local _ .vmem, ⟨2, _⟩ => ⟨S512x3x256, .f32⟩
  | .local _ .vmem, ⟨3, _⟩ => ⟨S512x3x256, .f32⟩
  | .local _ .vmem, ⟨4, _⟩ => ⟨S512x3, .f32⟩
  | .local _ .vmem, ⟨5, _⟩ => ⟨S512x3, .f32⟩
  | .local _ .vmem, ⟨6, _⟩ => ⟨S256x384, .f32⟩
  | .local _ .vmem, ⟨7, _⟩ => ⟨S512x512, .f32⟩
  | .local _ .vmem, ⟨8, _⟩ => ⟨S512, .f32⟩
  | .local _ .vmem, ⟨9, _⟩ => ⟨S512x256, .f32⟩
  | .local _ .vmem, ⟨10, _⟩ => ⟨S256, .f32⟩
  | .local _ .vmem, ⟨11, _⟩ => ⟨S128x129, .f32⟩
  | .local _ .vmem, ⟨12, _⟩ => ⟨S256x256, .f32⟩
  | .local _ .vmem, ⟨13, _⟩ => ⟨S256, .f32⟩
  | .local _ .vmem, ⟨14, _⟩ => ⟨S256x2, .f32⟩
  | .local _ .vmem, ⟨15, _⟩ => ⟨S2, .f32⟩
  | .local _ .vmem, ⟨16, _⟩ => ⟨S512x3, .f32⟩
  | .local _ .vmem, ⟨17, _⟩ => ⟨S512x3, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x129 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S512x3x256_S512x3x256_0_0_0 : ∀ a, (![0, 0, 0] : Fin 3 → Nat) a + S512x3x256.size a ≤ S512x3x256.size a
  h_S512x3x256 : 0 < S512x3x256.numel
  inb_S256x384_S256x384_0_0 : ∀ a, (![0, 0] : Fin 2 → Nat) a + S256x384.size a ≤ S256x384.size a
  h_S256x384 : 0 < S256x384.numel
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  inb_S256_S256_0 : ∀ a, (![0] : Fin 1 → Nat) a + S256.size a ≤ S256.size a
  h_S256 : 0 < S256.numel
  slices_S512x3x256_o0_0_0_S512x1x256 : S512x3x256.Slices ![0, 0, 0] S512x1x256
  shapeCasts_S512x1x256_S512x256 : S512x1x256.ShapeCasts S512x256
  bitsLt_bf16_f32 : FTy.bits .bf16 < FTy.bits .f32
  slices_S512x384_o0_0_S512x256 : S512x384.Slices ![0, 0] S512x256
  slices_S512x384_o0_256_S512x128 : S512x384.Slices ![0, 256] S512x128
  slices_S512x3x256_o0_1_0_S512x1x256 : S512x3x256.Slices ![0, 1, 0] S512x1x256
  slices_S512x3x256_o0_2_0_S512x1x256 : S512x3x256.Slices ![0, 2, 0] S512x1x256
  concatenates_S512x256_S512x256_S512x512_d1 : Shape.Concatenates [S512x256, S512x256] S512x512 1
  shapeCasts_S512_S1x512 : S512.ShapeCasts S1x512
  broadcasts_S1x512_S512x512 : S1x512.Broadcasts S512x512
  shapeCasts_S256_S1x256 : S256.ShapeCasts S1x256
  broadcasts_S1x256_S512x256 : S1x256.Broadcasts S512x256
  slices_S512x256_o0_0_S512x128 : S512x256.Slices ![0, 0] S512x128
  slices_S512x256_o0_128_S512x128 : S512x256.Slices ![0, 128] S512x128
  inb_S128x129_S128x129_0_0 : ∀ a, (![0, 0] : Fin 2 → Nat) a + S128x129.size a ≤ S128x129.size a
  h_S128x129 : 0 < S128x129.numel
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  slices_S512x129_o0_0_S512x128 : S512x129.Slices ![0, 0] S512x128
  slices_S512x129_o0_128_S512x1 : S512x129.Slices ![0, 128] S512x1
  concatenates_S512x128_S512x128_S512x256_d1 : Shape.Concatenates [S512x128, S512x128] S512x256 1
  shapeCasts_S2_S1x2 : S2.ShapeCasts S1x2
  broadcasts_S1x2_S512x2 : S1x2.Broadcasts S512x2
  slices_S512x2_o0_0_S512x1 : S512x2.Slices ![0, 0] S512x1
  slices_S512x2_o0_1_S512x1 : S512x2.Slices ![0, 1] S512x1
  concatenates_S512x1_S512x1_S512x1_S512x3_d1 : Shape.Concatenates [S512x1, S512x1, S512x1] S512x3 1
  inb_S512x3_S512x3_0_0 : ∀ a, (![0, 0] : Fin 2 → Nat) a + S512x3.size a ≤ S512x3.size a
  h_S512x3 : 0 < S512x3.numel
  broadcasts_S512x1_S512x3 : S512x1.Broadcasts S512x3
  bcast_S_S2048x3 : S_.BroadcastsInDim S2048x3 (![] : Fin 0 → Fin S2048x3.rank)
  bcast_S131072_S131072x1_0 : S131072.BroadcastsInDim S131072x1 (![0] : Fin 1 → Fin S131072x1.rank)
  reducesTo_S2048x3_S2048_d1 : S2048x3.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  dot_S512x256_S256x384_S512x384_1_0_0_1_n_n_wf : DotDims.WF S512x256 S256x384 S512x384 [1] [0] [0] [1] [] []
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  dot_S512x128_S128x129_S512x129_1_0_0_1_n_n_wf : DotDims.WF S512x128 S128x129 S512x129 [1] [0] [0] [1] [] []
  dot_S512x256_S256x256_S512x256_1_0_0_1_n_n_wf : DotDims.WF S512x256 S256x256 S512x256 [1] [0] [0] [1] [] []
  dot_S512x256_S256x2_S512x2_1_0_0_1_n_n_wf : DotDims.WF S512x256 S256x2 S512x2 [1] [0] [0] [1] [] []
  scatter_S2048x3_S131072x1_S131072x3_1_0_0_1_wf : ScatterDims.WF S2048x3 S131072x1 S131072x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S131072x256.size a
  hwx0_0 : ∀ i : grid0.Coords, EltTy.bits .f32 = 32 ∨ (Rect.block (s := S131072x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3x256.size a ≤ S131072x3x256.size a
  hwx0_1 : ∀ i : grid0.Coords, EltTy.bits .f32 = 32 ∨ (Rect.block (s := S131072x3x256) S512x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S131072x3.size a
  hwx0_2 : ∀ i : grid0.Coords, EltTy.bits .f32 = 32 ∨ (Rect.block (s := S131072x3) S512x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S256x384.size a
  hwx0_3 : ∀ i : grid0.Coords, EltTy.bits .f32 = 32 ∨ (Rect.block (s := S256x384) S256x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x129.size a ≤ S128x129.size a
  hwx0_8 : ∀ i : grid0.Coords, EltTy.bits .f32 = 32 ∨ (Rect.block (s := S128x129) S128x129.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2.size a ≤ S256x2.size a
  hwx0_11 : ∀ i : grid0.Coords, EltTy.bits .f32 = 32 ∨ (Rect.block (s := S256x2) S256x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x3.size a ≤ S131072x3.size a
  hwx0_13 : ∀ i : grid0.Coords, EltTy.bits .f32 = 32 ∨ (Rect.block (s := S131072x3) S512x3.size (cc0_transform_13 i) (hinb0_13 i)).WholeWords (EltTy.packing .f32)

variable [Facts₀]

def dot_S512x256_S256x384_S512x384_1_0_0_1_n_n : DotDims S512x256 S256x384 S512x384 where
  lhsContracting := [1]
  rhsContracting := [0]
  lhsNonContracting := [0]
  rhsNonContracting := [1]
  lhsBatch := []
  rhsBatch := []
  wf := dot_S512x256_S256x384_S512x384_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x128_S128x129_S512x129_1_0_0_1_n_n : DotDims S512x128 S128x129 S512x129 where
  lhsContracting := [1]
  rhsContracting := [0]
  lhsNonContracting := [0]
  rhsNonContracting := [1]
  lhsBatch := []
  rhsBatch := []
  wf := dot_S512x128_S128x129_S512x129_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf
def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

abbrev win0_0 : Pipeline.Window sig grid0 :=
  Pipeline.Window.ofSpec (Memref.whole main_arg1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x129.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S256x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S512x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S131072x3 : Shape := ⟨2, ![131072, 3]⟩
abbrev S131072x256 : Shape := ⟨2, ![131072, 256]⟩
abbrev S131072x3x256 : Shape := ⟨3, ![131072, 3, 256]⟩
abbrev S131072 : Shape := ⟨1, ![131072]⟩
abbrev S256x384 : Shape := ⟨2, ![256, 384]⟩
abbrev S512x512 : Shape := ⟨2, ![512, 512]⟩
abbrev S512 : Shape := ⟨1, ![512]⟩
abbrev S512x256 : Shape := ⟨2, ![512, 256]⟩
abbrev S256 : Shape := ⟨1, ![256]⟩
abbrev S128x129 : Shape := ⟨2, ![128, 129]⟩
abbrev S256x256 : Shape := ⟨2, ![256, 256]⟩
abbrev S256x2 : Shape := ⟨2, ![256, 2]⟩
abbrev S2 : Shape := ⟨1, ![2]⟩
abbrev S131072x3x384 : Shape := ⟨3, ![131072, 3, 384]⟩
abbrev S131072x3x128 : Shape := ⟨3, ![131072, 3, 128]⟩
abbrev S_ : Shape := ⟨0, ![]⟩
abbrev S131072x512 : Shape := ⟨2, ![131072, 512]⟩
abbrev S1x512 : Shape := ⟨2, ![1, 512]⟩
abbrev S1x256 : Shape := ⟨2, ![1, 256]⟩
abbrev S131072x128 : Shape := ⟨2, ![131072, 128]⟩
abbrev S131072x1x128 : Shape := ⟨3, ![131072, 1, 128]⟩
abbrev S131072x3x129 : Shape := ⟨3, ![131072, 3, 129]⟩
abbrev S131072x3x1 : Shape := ⟨3, ![131072, 3, 1]⟩
abbrev S131072x2 : Shape := ⟨2, ![131072, 2]⟩
abbrev S1x2 : Shape := ⟨2, ![1, 2]⟩
abbrev S131072x1 : Shape := ⟨2, ![131072, 1]⟩
abbrev S131072x1x1 : Shape := ⟨3, ![131072, 1, 1]⟩
abbrev S2048x3 : Shape := ⟨2, ![2048, 3]⟩
abbrev S2048 : Shape := ⟨1, ![2048]⟩
abbrev S2048x1 : Shape := ⟨2, ![2048, 1]⟩

abbrev nBuf : Space → Nat
  | .hbm => 108
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S131072x256, .f32⟩
  | .hbm, ⟨2, _⟩ => ⟨S131072x3x256, .f32⟩
  | .hbm, ⟨3, _⟩ => ⟨S131072, .i32⟩
  | .hbm, ⟨4, _⟩ => ⟨S256x384, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S128x129, .f32⟩
  | .hbm, ⟨10, _⟩ => ⟨S256x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S131072x3x384, .f32⟩
  | .hbm, ⟨15, _⟩ => ⟨S131072x3x256, .f32⟩
  | .hbm, ⟨16, _⟩ => ⟨S131072x3x128, .f32⟩
  | .hbm, ⟨17, _⟩ => ⟨S131072x3x256, .f32⟩
  | .hbm, ⟨18, _⟩ => ⟨S_, .f32⟩
  | .hbm, ⟨19, _⟩ => ⟨S131072x256, .f32⟩
  | .hbm, ⟨20, _⟩ => ⟨S131072x256, .f32⟩
  | .hbm, ⟨21, _⟩ => ⟨S131072x512, .f32⟩
  | .hbm, ⟨22, _⟩ => ⟨S131072x512, .f32⟩
  | .hbm, ⟨23, _⟩ => ⟨S1x512, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072x512, .f32⟩
  | .hbm, ⟨33, _⟩ => ⟨S131072x512, .f32⟩
  | .hbm, ⟨34, _⟩ => ⟨S131072x512, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S131072x128, .f32⟩
  | .hbm, ⟨40, _⟩ => ⟨S131072x128, .f32⟩
  | .hbm, ⟨41, _⟩ => ⟨S131072x1x128, .f32⟩
  | .hbm, ⟨42, _⟩ => ⟨S131072x3x128, .f32⟩
  | .hbm, ⟨43, _⟩ => ⟨S131072x3x128, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x3x129, .f32⟩
  | .hbm, ⟨54, _⟩ => ⟨S131072x3x128, .f32⟩
  | .hbm, ⟨55, _⟩ => ⟨S131072x3x1, .f32⟩
  | .hbm, ⟨56, _⟩ => ⟨S131072x3x128, .f32⟩
  | .hbm, ⟨57, _⟩ => ⟨S_, .f32⟩
  | .hbm, ⟨58, _⟩ => ⟨S131072x128, .f32⟩
  | .hbm, ⟨59, _⟩ => ⟨S131072x128, .f32⟩
  | .hbm, ⟨60, _⟩ => ⟨S131072x256, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S131072x256, .f32⟩
  | .hbm, ⟨66, _⟩ => ⟨S131072x256, .f32⟩
  | .hbm, ⟨67, _⟩ => ⟨S_, .f32⟩
  | .hbm, ⟨68, _⟩ => ⟨S131072x256, .f32⟩
  | .hbm, ⟨69, _⟩ => ⟨S131072x256, .f32⟩
  | .hbm, ⟨70, _⟩ => ⟨S_, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S131072x2, .f32⟩
  | .hbm, ⟨75, _⟩ => ⟨S1x2, .f32⟩
  | .hbm, ⟨76, _⟩ => ⟨S131072x2, .f32⟩
  | .hbm, ⟨77, _⟩ => ⟨S131072x2, .f32⟩
  | .hbm, ⟨78, _⟩ => ⟨S131072x1, .f32⟩
  | .hbm, ⟨79, _⟩ => ⟨S131072x1, .f32⟩
  | .hbm, ⟨80, _⟩ => ⟨S131072x1x1, .f32⟩
  | .hbm, ⟨81, _⟩ => ⟨S131072x3x1, .f32⟩
  | .hbm, ⟨82, _⟩ => ⟨S131072x3x1, .f32⟩
  | .hbm, ⟨83, _⟩ => ⟨S131072x3, .f32⟩
  | .hbm, ⟨84, _⟩ => ⟨S_, .f32⟩
  | .hbm, ⟨85, _⟩ => ⟨S131072x1, .f32⟩
  | .hbm, ⟨86, _⟩ => ⟨S131072x1, .f32⟩
  | .hbm, ⟨87, _⟩ => ⟨S_, .f32⟩
  | .hbm, ⟨88, _⟩ => ⟨S131072x1, .f32⟩
  | .hbm, ⟨89, _⟩ => ⟨S131072x1, .f32⟩
  | .hbm, ⟨90, _⟩ => ⟨S131072x3, .f32⟩
  | .hbm, ⟨91, _⟩ => ⟨S131072x3, .f32⟩
  | .hbm, ⟨92, _⟩ => ⟨S131072x3, .f32⟩
  | .hbm, ⟨93, _⟩ => ⟨S_, .f32⟩
  | .hbm, ⟨94, _⟩ => ⟨S2048x3, .f32⟩
  | .hbm, ⟨95, _⟩ => ⟨S131072x1, .i32⟩
  | .hbm, ⟨96, _⟩ => ⟨S2048x3, .f32⟩
  | .hbm, ⟨97, _⟩ => ⟨S2048x3, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1, .f32⟩
  | .hbm, ⟨102, _⟩ => ⟨S_, .f32⟩
  | .hbm, ⟨103, _⟩ => ⟨S2048x1, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call4_v0 : Ref sig .tc := ⟨.hbm, 65, rfl⟩
abbrev main_call4_v1 : Ref sig .tc := ⟨.hbm, 66, rfl⟩
abbrev main_call4_cst : Ref sig .tc := ⟨.hbm, 67, rfl⟩
abbrev main_call4_v2 : Ref sig .tc := ⟨.hbm, 68, rfl⟩
abbrev main_call4_v3 : Ref sig .tc := ⟨.hbm, 69, rfl⟩
abbrev main_call4_cst_0 : Ref sig .tc := ⟨.hbm, 70, rfl⟩
abbrev main_call4_v4 : Ref sig .tc := ⟨.hbm, 71, rfl⟩
abbrev main_call4_v5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst : Ref sig .tc := ⟨.hbm, 84, rfl⟩
abbrev main_v40 : Ref sig .tc := ⟨.hbm, 85, rfl⟩
abbrev main_v41 : Ref sig .tc := ⟨.hbm, 86, rfl⟩
abbrev main_cst_0 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_1 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_call5_v0 : Ref sig .tc := ⟨.hbm, 97, rfl⟩
abbrev main_call5_cst : Ref sig .tc := ⟨.hbm, 98, rfl⟩
abbrev main_call5_v1 : Ref sig .tc := ⟨.hbm, 99, rfl⟩
abbrev main_call5_v2 : Ref sig .tc := ⟨.hbm, 100, rfl⟩
abbrev main_v50 : Ref sig .tc := ⟨.hbm, 101, rfl⟩
abbrev main_cst_2 : Ref sig .tc := ⟨.hbm, 102, rfl⟩
abbrev main_v51 : Ref sig .tc := ⟨.hbm, 103, rfl⟩
abbrev main_v52 : Ref sig .tc := ⟨.hbm, 104, rfl⟩
abbrev main_cst_3 : Ref sig .tc := ⟨.hbm, 105, rfl⟩
abbrev main_v53 : Ref sig .tc := ⟨.hbm, 106, rfl⟩
abbrev main_v54 : Ref sig .tc := ⟨.hbm, 107, rfl⟩

abbrev nD : Nat := 1
abbrev τ : Topo := Topo.v7x

variable {F : FTy → Type} [FloatOps F]

class Facts₀ : Prop where
  slices_S131072x3x384_S131072x3x256_0_0_0 : S131072x3x384.Slices ![0, 0, 0] S131072x3x256
  slices_S131072x3x384_S131072x3x128_0_0_256 : S131072x3x384.Slices ![0, 0, 256] S131072x3x128
  reducesTo_S131072x3x256_S131072x256_d1 : S131072x3x256.ReducesTo [1] S131072x256
  h_S_ : 0 < S_.numel
  concatenates_S131072x256_S131072x256_S131072x512_d1 : Shape.Concatenates [S131072x256, S131072x256] S131072x512 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S131072x128_0_0 : S131072x256.Slices ![0, 0] S131072x128
  slices_S131072x256_S131072x128_0_128 : S131072x256.Slices ![0, 128] S131072x128
  bcast_S131072x128_S131072x1x128_0_2 : S131072x128.BroadcastsInDim S131072x1x128 (![0, 2] : Fin 2 → Fin S131072x1x128.rank)
  bcast_S131072x1x128_S131072x3x128_0_1_2 : S131072x1x128.BroadcastsInDim S131072x3x128 (![0, 1, 2] : Fin 3 → Fin S131072x3x128.rank)
  bcast_S_S131072x128 : S_.BroadcastsInDim S131072x128 (![] : Fin 0 → Fin S131072x128.rank)
  slices_S131072x3x129_S131072x3x128_0_0_0 : S131072x3x129.Slices ![0, 0, 0] S131072x3x128
  slices_S131072x3x129_S131072x3x1_0_0_128 : S131072x3x129.Slices ![0, 0, 128] S131072x3x1
  reducesTo_S131072x3x128_S131072x128_d1 : S131072x3x128.ReducesTo [1] S131072x128
  concatenates_S131072x128_S131072x128_S131072x256_d1 : Shape.Concatenates [S131072x128, S131072x128] S131072x256 1
  bcast_S_S131072x256 : S_.BroadcastsInDim S131072x256 (![] : Fin 0 → Fin S131072x256.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  slices_S131072x2_S131072x1_0_0 : S131072x2.Slices ![0, 0] S131072x1
  slices_S131072x2_S131072x1_0_1 : S131072x2.Slices ![0, 1] S131072x1
  bcast_S131072x1_S131072x1x1_0_2 : S131072x1.BroadcastsInDim S131072x1x1 (![0, 2] : Fin 2 → Fin S131072x1x1.rank)
  bcast_S131072x1x1_S131072x3x1_0_1_2 : S131072x1x1.BroadcastsInDim S131072x3x1 (![0, 1, 2] : Fin 3 → Fin S131072x3x1.rank)
  shapeCasts_S131072x3x1_S131072x3 : S131072x3x1.ShapeCasts S131072x3
  bcast_S_S131072x1 : S_.BroadcastsInDim S131072x1 (![] : Fin 0 → Fin S131072x1.rank)
  bcast_S131072x1_S131072x3_0_1 : S131072x1.BroadcastsInDim S131072x3 (![0, 1] : Fin 2 → Fin S131072x3.rank)
  bcast_S_S2048x3 : S_.BroadcastsInDim S2048x3 (![] : Fin 0 → Fin S2048x3.rank)
  bcast_S131072_S131072x1_0 : S131072.BroadcastsInDim S131072x1 (![0] : Fin 1 → Fin S131072x1.rank)
  reducesTo_S2048x3_S2048_d1 : S2048x3.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  dot_S131072x3x256_S256x384_S131072x3x384_2_0_01_1_n_n_wf : DotDims.WF S131072x3x256 S256x384 S131072x3x384 [2] [0] [0, 1] [1] [] []
  dot_S131072x512_S512x512_S131072x512_1_0_0_1_n_n_wf : DotDims.WF S131072x512 S512x512 S131072x512 [1] [0] [0] [1] [] []
  dot_S131072x512_S512x256_S131072x256_1_0_0_1_n_n_wf : DotDims.WF S131072x512 S512x256 S131072x256 [1] [0] [0] [1] [] []
  dot_S131072x3x128_S128x129_S131072x3x129_2_0_01_1_n_n_wf : DotDims.WF S131072x3x128 S128x129 S131072x3x129 [2] [0] [0, 1] [1] [] []
  dot_S131072x256_S256x256_S131072x256_1_0_0_1_n_n_wf : DotDims.WF S131072x256 S256x256 S131072x256 [1] [0] [0] [1] [] []
  dot_S131072x256_S256x2_S131072x2_1_0_0_1_n_n_wf : DotDims.WF S131072x256 S256x2 S131072x2 [1] [0] [0] [1] [] []
  scatter_S2048x3_S131072x1_S131072x3_1_0_0_1_wf : ScatterDims.WF S2048x3 S131072x1 S131072x3 [1] [0] [0] 1

variable [Facts₀]

def dot_S131072x3x256_S256x384_S131072x3x384_2_0_01_1_n_n : DotDims S131072x3x256 S256x384 S131072x3x384 where
  lhsContracting := [2]
  rhsContracting := [0]
  lhsNonContracting := [0, 1]
  rhsNonContracting := [1]
  lhsBatch := []
  rhsBatch := []
  wf := dot_S131072x3x256_S256x384_S131072x3x384_2_0_01_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x3x128_S128x129_S131072x3x129_2_0_01_1_n_n : DotDims S131072x3x128 S128x129 S131072x3x129 where
  lhsContracting := [2]
  rhsContracting := [0]
  lhsNonContracting := [0, 1]
  rhsNonContracting := [1]
  lhsBatch := []
  rhsBatch := []
  wf := dot_S131072x3x128_S128x129_S131072x3x129_2_0_01_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf
def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.NodeSpec.lean ====
/-
  One node's readout, as a function of that node's own rows.

  A node carries a scalar row s (256 entries), three vector rows v 0, v 1, v 2 (256 entries each) and a position p
  (3 entries). Two gated blocks act on it, one after the other. A gated block sends each vector row through ONE
  matrix, splits the image into a first part and a second part, takes the Euclidean length of the three first parts
  entry by entry, feeds the scalar row followed by those lengths through two dense layers with a sigmoid-weighted
  unit (x ↦ x · σ(x)) between them, splits that result into a scalar part and a gate, and scales each vector row's
  second part by the gate. After the first block the scalar part goes through the same unit once more; the second
  block has one gate entry and one scalar entry, and the node's dipole is
      gate · (second part of vector row j)  +  (scalar · 1 + 0) · p j,        j = 0, 1, 2.
  Everything is over the extended reals; the two words 0 and 1 are kept as float words.
-/
import proofs.«112560_j86973087744435_1_alg».proof.Proof.LibDenseRows

noncomputable section

namespace Cert.NodeSpec

open Idealize.ShloMosaic Idealize.ShloMosaic.ValueIdx
open Cert.LibDenseRows (dense zeroW)

/-- The f32 word of one read at the extended reals. -/
abbrev oneW : EReal := Ideal.ofBits .f32 0x3F800000#32

/-- A row times a matrix. -/
def proj {K N : ℕ} (x : Fin K → EReal) (W : Fin K → Fin N → EReal) : Fin N → EReal :=
  fun n => ∑ k : Fin K, x k * W k n

/-- The sigmoid-weighted unit x ↦ x · σ(x), entry by entry. -/
def silu {N : ℕ} (x : Fin N → EReal) : Fin N → EReal := fun n => x n * Ideal.logistic (x n)

/-- The Euclidean length of three rows, entry by entry: the root of the zero word plus the three squares. -/
def norm3 {N : ℕ} (q : Fin 3 → Fin N → EReal) : Fin N → EReal :=
  fun n => Ideal.sqrt (zeroW + ∑ i : Fin 3, q i n * q i n)

/-- Entries o, o + 1, …, o + M − 1 of a row. -/
def part {N : ℕ} (o M : ℕ) (h : o + M ≤ N) (x : Fin N → EReal) : Fin M → EReal :=
  fun j => x ⟨o + j.val, by have := j.isLt; omega⟩

/-- One row followed by another. -/
def join {A B C : ℕ} (hC : A + B = C) (a : Fin A → EReal) (b : Fin B → EReal) : Fin C → EReal :=
  fun k => if h : k.val < A then a ⟨k.val, h⟩ else b ⟨k.val - A, by have := k.isLt; omega⟩

/-- The ten weight arrays, entry by entry. -/
structure Weights where
  Wg0 : Fin 256 → Fin 384 → EReal
  W01 : Fin 512 → Fin 512 → EReal
  b01 : Fin 512 → EReal
  W02 : Fin 512 → Fin 256 → EReal
  b02 : Fin 256 → EReal
  Wg1 : Fin 128 → Fin 129 → EReal
  W11 : Fin 256 → Fin 256 → EReal
  b11 : Fin 256 → EReal
  W12 : Fin 256 → Fin 2 → EReal
  b12 : Fin 2 → EReal

variable (w : Weights) (s : Fin 256 → EReal) (v : Fin 3 → Fin 256 → EReal) (p : Fin 3 → EReal)

/-- First block: vector row i through its matrix. -/
def img0 (i : Fin 3) : Fin 384 → EReal := proj (v i) w.Wg0
/-- First block: the lengths of the three first parts. -/
def len0 : Fin 256 → EReal := norm3 fun i => part 0 256 (by omega) (img0 w v i)
/-- First block: the two dense layers on the scalar row followed by the lengths. -/
def mlp0 : Fin 256 → EReal :=
  dense (silu (dense (join (by rfl : 256 + 256 = 512) s (len0 w v)) w.W01 w.b01)) w.W02 w.b02
/-- First block: vector row i's second part scaled by the gate. -/
def gated0 (i : Fin 3) : Fin 128 → EReal :=
  fun o => part 128 128 (by omega) (mlp0 w s v) o * part 256 128 (by omega) (img0 w v i) o
/-- The scalar part after the unit. -/
def scal0 : Fin 128 → EReal := silu (part 0 128 (by omega) (mlp0 w s v))
/-- Second block: gated vector row i through its matrix. -/
def img1 (i : Fin 3) : Fin 129 → EReal := proj (gated0 w s v i) w.Wg1
/-- Second block: the lengths of the three first parts. -/
def len1 : Fin 128 → EReal := norm3 fun i => part 0 128 (by omega) (img1 w s v i)
/-- Second block: the two dense layers; entry 0 is the scalar, entry 1 the gate. -/
def mlp1 : Fin 2 → EReal :=
  dense (silu (dense (join (by rfl : 128 + 128 = 256) (scal0 w s v) (len1 w s v)) w.W11 w.b11)) w.W12 w.b12
/-- The node's dipole. -/
def nodeMu : Fin 3 → EReal :=
  fun j => mlp1 w s v 1 * img1 w s v j ⟨128, by omega⟩ + (mlp1 w s v 0 * oneW + zeroW) * p j

end Cert.NodeSpec

end
-- ==== Proof.NodeArray.lean ====
/-
  The node readout over whole arrays: the weights read off their arrays entry by entry, and the readout of node n
  from row n of the scalar, vector and position arrays.
-/
import proofs.«112560_j86973087744435_1_alg».proof.Proof.NodeSpec

noncomputable section

namespace Cert.NodeSpec

open Idealize.ShloMosaic Idealize.ShloMosaic.ValueIdx

/-- The ten weight arrays as entry functions. -/
def Weights.ofArrays
    (a4 : (⟨2, ![256, 384]⟩ : Shape).Idx → EReal) (a5 : (⟨2, ![512, 512]⟩ : Shape).Idx → EReal)
    (a6 : (⟨1, ![512]⟩ : Shape).Idx → EReal) (a7 : (⟨2, ![512, 256]⟩ : Shape).Idx → EReal)
    (a8 : (⟨1, ![256]⟩ : Shape).Idx → EReal) (a9 : (⟨2, ![128, 129]⟩ : Shape).Idx → EReal)
    (a10 : (⟨2, ![256, 256]⟩ : Shape).Idx → EReal) (a11 : (⟨1, ![256]⟩ : Shape).Idx → EReal)
    (a12 : (⟨2, ![256, 2]⟩ : Shape).Idx → EReal) (a13 : (⟨1, ![2]⟩ : Shape).Idx → EReal) : Weights where
  Wg0 k n := a4 (ix2 k n)
  W01 k n := a5 (ix2 k n)
  b01 n := a6 (ix1 n)
  W02 k n := a7 (ix2 k n)
  b02 n := a8 (ix1 n)
  Wg1 k n := a9 (ix2 k n)
  W11 k n := a10 (ix2 k n)
  b11 n := a11 (ix1 n)
  W12 k n := a12 (ix2 k n)
  b12 n := a13 (ix1 n)

/-- Node n's dipole, entry j, from row n of the three node arrays. -/
def nodeAt (w : Weights) (S : (⟨2, ![131072, 256]⟩ : Shape).Idx → EReal)
    (V : (⟨3, ![131072, 3, 256]⟩ : Shape).Idx → EReal) (P : (⟨2, ![131072, 3]⟩ : Shape).Idx → EReal)
    (n : Fin 131072) (j : Fin 3) : EReal :=
  nodeMu w (fun f => S (ix2 n f)) (fun i f => V (ix3 n i f)) (fun k => P (ix2 n k)) j

/-- All nodes' dipoles as one array. -/
def nodeArr (w : Weights) (S : (⟨2, ![131072, 256]⟩ : Shape).Idx → EReal)
    (V : (⟨3, ![131072, 3, 256]⟩ : Shape).Idx → EReal) (P : (⟨2, ![131072, 3]⟩ : Shape).Idx → EReal) :
    (⟨2, ![131072, 3]⟩ : Shape).Idx → EReal :=
  fun idx => nodeAt w S V P (idx 0) (idx 1)

theorem nodeArr_apply (w : Weights) (S : (⟨2, ![131072, 256]⟩ : Shape).Idx → EReal)
    (V : (⟨3, ![131072, 3, 256]⟩ : Shape).Idx → EReal) (P : (⟨2, ![131072, 3]⟩ : Shape).Idx → EReal)
    (n : Fin 131072) (j : Fin 3) : nodeArr w S V P (ix2 n j) = nodeAt w S V P n j := rfl

end Cert.NodeSpec

end
-- ==== Proof.KernelRowsDefs.lean ====
/-
  Names for one row of a block of 512 nodes: the weights as the body loads them, and row r of the block's scalar,
  vector and position blocks.
-/
import proofs.«112560_j86973087744435_1_alg».proof.Proof.Gen.KernelIdeal.Skeleton
import proofs.«112560_j86973087744435_1_alg».proof.Proof.NodeArray
import Idealize.ShloMosaic.Lib.ValueLayout

noncomputable section

namespace Cert.KernelIdeal.Rows

open Idealize.ShloMosaic Idealize.ShloMosaic.ValueIdx Cert.KernelIdeal Cert.KernelIdeal.Gen
open Cert.NodeSpec Cert.LibDenseRows

variable (x0 : Vec Ideal S512x256 .f32) (x1 : Vec Ideal S512x3x256 .f32) (x2 : Vec Ideal S512x3 .f32)
  (x3 : Vec Ideal S256x384 .f32) (x4 : Vec Ideal S512x512 .f32) (x5 : Vec Ideal S512 .f32) (x6 : Vec Ideal S512x256 .f32)
  (x7 : Vec Ideal S256 .f32) (x8 : Vec Ideal S128x129 .f32) (x9 : Vec Ideal S256x256 .f32) (x10 : Vec Ideal S256 .f32)
  (x11 : Vec Ideal S256x2 .f32) (x12 : Vec Ideal S2 .f32) (r : Fin 512)

/-- The weights, from the ten blocks the body loads whole. -/
abbrev bW : Weights := Weights.ofArrays x3 x4 x5 x6 x7 x8 x9 x10 x11 x12
/-- Row r of the scalar block. -/
abbrev sR : Fin 256 → EReal := fun f => x0 (ix2 r f)
/-- Row r of the vector block: three rows of 256. -/
abbrev vR : Fin 3 → Fin 256 → EReal := fun i f => x1 (ix3 r i f)
/-- Row r of the position block. -/
abbrev pR : Fin 3 → EReal := fun j => x2 (ix2 r j)

end Cert.KernelIdeal.Rows

end
-- ==== Proof.KernelRowsA.lean ====
/-
  The first half of the body, read along row r of a block: the three vector rows through the first matrix, the
  second parts of the images, the first dense product on the scalar row followed by the lengths, and the first bias.
-/
import proofs.«112560_j86973087744435_1_alg».proof.Proof.KernelRowsDefs

noncomputable section

namespace Cert.KernelIdeal.Rows

open Idealize.ShloMosaic Idealize.ShloMosaic.ValueIdx Cert.KernelIdeal Cert.KernelIdeal.Gen
open Cert.NodeSpec Cert.LibDenseRows

variable (x0 : Vec Ideal S512x256 .f32) (x1 : Vec Ideal S512x3x256 .f32) (x2 : Vec Ideal S512x3 .f32)
  (x3 : Vec Ideal S256x384 .f32) (x4 : Vec Ideal S512x512 .f32) (x5 : Vec Ideal S512 .f32) (x6 : Vec Ideal S512x256 .f32)
  (x7 : Vec Ideal S256 .f32) (x8 : Vec Ideal S128x129 .f32) (x9 : Vec Ideal S256x256 .f32) (x10 : Vec Ideal S256 .f32)
  (x11 : Vec Ideal S256x2 .f32) (x12 : Vec Ideal S2 .f32) (r : Fin 512)

/-- One of the three vector rows cut out of the vector block and read as a matrix: at (r, f) it is the block at
    (r, i, f). -/
theorem cutRow_apply (i : ℕ) (hi : i < 3) (h : S512x3x256.Slices ![0, i, 0] S512x1x256)
    (h' : S512x1x256.ShapeCasts S512x256) (f : Fin 256) :
    shapeCast S512x256 (extractStridedSlice S512x1x256 ![0, i, 0] x1 h) h' (ix2 r f) = x1 (ix3 r ⟨i, hi⟩ f) := by
  rw [shapeCast_apply _ h' (ix2 r f) (ix3 r (0 : Fin 1) f) (by
    rw [Shape.rowMajor_val_three, Shape.rowMajor_val_two]
    show (r.val * 1 + 0) * 256 + f.val = r.val * 256 + f.val
    omega)]
  exact slice3_axis1_apply i x1 h r (0 : Fin 1) f ⟨i, hi⟩ rfl

/-- Vector row 0 through the first matrix. -/
theorem pay2_row : (fun o : Fin 384 => k0_pay2 (F := Ideal) x1 x3 (ix2 r o)) = img0 (bW x3 x4 x5 x6 x7 x8 x9 x10 x11 x12) (vR x1 r) 0 := by
  funext o
  unfold k0_pay2 img0 proj
  show matmul (DotDims.plain 512 256 384) none _ _ (constant (Sh2 512 384) .f32 0x00000000#32) (ix2 r o) = _
  rw [matmul_plain_zero_apply]
  refine Finset.sum_congr rfl fun c _ => ?_
  exact congrArg (fun t => t * x3 (ix2 c o))
    (cutRow_apply x1 r 0 (by omega) slices_S512x3x256_o0_0_0_S512x1x256 shapeCasts_S512x1x256_S512x256 c)
/-- Vector row 1 through the first matrix. -/
theorem pay4_row : (fun o : Fin 384 => k0_pay4 (F := Ideal) x1 x3 (ix2 r o)) = img0 (bW x3 x4 x5 x6 x7 x8 x9 x10 x11 x12) (vR x1 r) 1 := by
  funext o
  unfold k0_pay4 img0 proj
  show matmul (DotDims.plain 512 256 384) none _ _ (constant (Sh2 512 384) .f32 0x00000000#32) (ix2 r o) = _
  rw [matmul_plain_zero_apply]
  refine Finset.sum_congr rfl fun c _ => ?_
  exact congrArg (fun t => t * x3 (ix2 c o))
    (cutRow_apply x1 r 1 (by omega) slices_S512x3x256_o0_1_0_S512x1x256 shapeCasts_S512x1x256_S512x256 c)
/-- Vector row 2 through the first matrix. -/
theorem pay6_row : (fun o : Fin 384 => k0_pay6 (F := Ideal) x1 x3 (ix2 r o)) = img0 (bW x3 x4 x5 x6 x7 x8 x9 x10 x11 x12) (vR x1 r) 2 := by
  funext o
  unfold k0_pay6 img0 proj
  show matmul (DotDims.plain 512 256 384) none _ _ (constant (Sh2 512 384) .f32 0x00000000#32) (ix2 r o) = _
  rw [matmul_plain_zero_apply]
  refine Finset.sum_congr rfl fun c _ => ?_
  exact congrArg (fun t => t * x3 (ix2 c o))
    (cutRow_apply x1 r 2 (by omega) slices_S512x3x256_o0_2_0_S512x1x256 shapeCasts_S512x1x256_S512x256 c)

/-- The second part (entries 256 … 383) of image 0. -/
theorem pay3_row : (fun o : Fin 128 => k0_pay3 (F := Ideal) x1 x3 (ix2 r o))
    = part 256 128 (by omega) (img0 (bW x3 x4 x5 x6 x7 x8 x9 x10 x11 x12) (vR x1 r) 0) := by
  funext o
  unfold k0_pay3 part
  refine (slice2_axis1_eq 256 (k0_pay2 (F := Ideal) x1 x3) slices_S512x384_o0_256_S512x128 r o).trans ?_
  exact congrFun (pay2_row x1 x3 x4 x5 x6 x7 x8 x9 x10 x11 x12 r) _
/-- The second part of image 1. -/
theorem pay5_row : (fun o : Fin 128 => k0_pay5 (F := Ideal) x1 x3 (ix2 r o))
    = part 256 128 (by omega) (img0 (bW x3 x4 x5 x6 x7 x8 x9 x10 x11 x12) (vR x1 r) 1) := by
  funext o
  unfold k0_pay5 part
  refine (slice2_axis1_eq 256 (k0_pay4 (F := Ideal) x1 x3) slices_S512x384_o0_256_S512x128 r o).trans ?_
  exact congrFun (pay4_row x1 x3 x4 x5 x6 x7 x8 x9 x10 x11 x12 r) _
/-- The second part of image 2. -/
theorem pay7_row : (fun o : Fin 128 => k0_pay7 (F := Ideal) x1 x3 (ix2 r o))
    = part 256 128 (by omega) (img0 (bW x3 x4 x5 x6 x7 x8 x9 x10 x11 x12) (vR x1 r) 2) := by
  funext o
  unfold k0_pay7 part
  refine (slice2_axis1_eq 256 (k0_pay6 (F := Ideal) x1 x3) slices_S512x384_o0_256_S512x128 r o).trans ?_
  exact congrFun (pay6_row x1 x3 x4 x5 x6 x7 x8 x9 x10 x11 x12 r) _

/-- The first part (entries 0 … 255) of a block of 384 columns, read along row r. -/
theorem firstPart_apply (Z : FVec Ideal S512x384 .f32) (j : Fin 256) :
    extractStridedSlice S512x256 ![0, 0] Z slices_S512x384_o0_0_S512x256 (ix2 r j)
      = part 0 256 (by omega) (fun o : Fin 384 => Z (ix2 r o)) j :=
  slice2_axis1_eq 0 Z slices_S512x384_o0_0_S512x256 r j

/-- A word plus a sum of three terms, added one term at a time. -/
theorem add_sum_three (z : EReal) (f : Fin 3 → EReal) : z + ∑ i : Fin 3, f i = z + f 0 + f 1 + f 2 := by
  rw [Fin.sum_univ_three, ← add_assoc, ← add_assoc]

/-- The first dense product, before its bias: the scalar row followed by the lengths, through W01. -/
theorem pay8_row : (fun o : Fin 512 => k0_pay8 (F := Ideal) x0 x1 x3 x4 (ix2 r o))
    = proj (join (by rfl : 256 + 256 = 512) (sR x0 r) (len0 (bW x3 x4 x5 x6 x7 x8 x9 x10 x11 x12) (vR x1 r))) (bW x3 x4 x5 x6 x7 x8 x9 x10 x11 x12).W01 := by
  funext o
  unfold k0_pay8 proj
  show matmul (DotDims.plain 512 512 512) none _ _ (constant (Sh2 512 512) .f32 0x00000000#32) (ix2 r o) = _
  rw [matmul_plain_zero_apply]
  refine Finset.sum_congr rfl fun c _ => ?_
  refine congrArg (fun t => t * x4 (ix2 c o)) ?_
  unfold join
  by_cases h : c.val < 256
  · rw [dif_pos h]
    exact concatenate_pair_apply_left 1 x0 _ concatenates_S512x256_S512x256_S512x512_d1 (ix2 r c) rfl (ix2 r ⟨c.val, h⟩)
      (fun b => by match b with
        | ⟨0, _⟩ => rfl
        | ⟨1, _⟩ => rfl)
  · rw [dif_neg h]
    refine (concatenate_pair_apply_right 1 x0 _ concatenates_S512x256_S512x256_S512x512_d1 (ix2 r c) rfl rfl
      (ix2 r ⟨c.val - 256, by have := c.isLt; omega⟩) (fun b hb => ?_) ?_).trans ?_
    · match b with
      | ⟨0, _⟩ => rfl
      | ⟨1, _⟩ => exact absurd rfl hb
    · show c.val - 256 + 256 = c.val
      omega
    · unfold len0 norm3
      rw [add_sum_three]
      refine congrArg Ideal.sqrt ?_
      rw [addf_apply, addf_apply, addf_apply, mulf_apply, mulf_apply, mulf_apply, broadcast_apply]
      rw [firstPart_apply, firstPart_apply, firstPart_apply]
      rw [pay2_row x1 x3 x4 x5 x6 x7 x8 x9 x10 x11 x12 r, pay4_row x1 x3 x4 x5 x6 x7 x8 x9 x10 x11 x12 r, pay6_row x1 x3 x4 x5 x6 x7 x8 x9 x10 x11 x12 r]
      rfl

/-- The first bias as a one-row matrix. -/
theorem pay9_row : (fun o : Fin 512 => k0_pay9 (F := Ideal) x5 (ix2 (0 : Fin 1) o)) = (bW x3 x4 x5 x6 x7 x8 x9 x10 x11 x12).b01 := by
  funext o
  unfold k0_pay9
  exact shapeCast_a_1a_apply x5 shapeCasts_S512_S1x512 0 o

end Cert.KernelIdeal.Rows

end
-- ==== Proof.KernelRowsB.lean ====
/-
  The second half of the body, read along row r of a block, over the first half's values: the two dense layers of the
  first block, the gate and the gated vector rows through the second matrix, the scalar part and the second lengths,
  and the body's stored value, which is the node's dipole.
-/
import proofs.«112560_j86973087744435_1_alg».proof.Proof.KernelRowsA

noncomputable section

namespace Cert.KernelIdeal.Rows

open Idealize.ShloMosaic Idealize.ShloMosaic.ValueIdx Cert.KernelIdeal Cert.KernelIdeal.Gen
open Cert.NodeSpec Cert.LibDenseRows

variable (x0 : Vec Ideal S512x256 .f32) (x1 : Vec Ideal S512x3x256 .f32) (x2 : Vec Ideal S512x3 .f32)
  (x3 : Vec Ideal S256x384 .f32) (x4 : Vec Ideal S512x512 .f32) (x5 : Vec Ideal S512 .f32) (x6 : Vec Ideal S512x256 .f32)
  (x7 : Vec Ideal S256 .f32) (x8 : Vec Ideal S128x129 .f32) (x9 : Vec Ideal S256x256 .f32) (x10 : Vec Ideal S256 .f32)
  (x11 : Vec Ideal S256x2 .f32) (x12 : Vec Ideal S2 .f32) (r : Fin 512)

/-! ## Blocks set side by side, and a column spread across columns -/

/-- Two blocks set side by side, read left of the seam: the first block at the same place. -/
theorem concat2_axis1_left {α : Type} {n a b c : ℕ} (x₁ : (Sh2 n a).Idx → α) (x₂ : (Sh2 n b).Idx → α)
    (h : Shape.Concatenates [Sh2 n a, Sh2 n b] (Sh2 n c) 1) (p : Fin n) (o : Fin c) (ho : o.val < a) :
    concatenate (Sh2 n c) 1 [⟨Sh2 n a, x₁⟩, ⟨Sh2 n b, x₂⟩] h (ix2 p o) = x₁ (ix2 p ⟨o.val, ho⟩) :=
  concatenate_pair_apply_left 1 x₁ x₂ h (ix2 p o) rfl (ix2 p ⟨o.val, ho⟩) (fun d => by
    match d with
    | ⟨0, _⟩ => rfl
    | ⟨1, _⟩ => rfl)

/-- Two blocks set side by side, read right of the seam: the second block, the first block's width to the left. -/
theorem concat2_axis1_right {α : Type} {n a b c : ℕ} (x₁ : (Sh2 n a).Idx → α) (x₂ : (Sh2 n b).Idx → α)
    (h : Shape.Concatenates [Sh2 n a, Sh2 n b] (Sh2 n c) 1) (p : Fin n) (o : Fin c) (ho : a ≤ o.val) (hb : o.val - a < b) :
    concatenate (Sh2 n c) 1 [⟨Sh2 n a, x₁⟩, ⟨Sh2 n b, x₂⟩] h (ix2 p o) = x₂ (ix2 p ⟨o.val - a, hb⟩) :=
  concatenate_pair_apply_right 1 x₁ x₂ h (ix2 p o) rfl rfl (ix2 p ⟨o.val - a, hb⟩) (fun d hd => by
    match d with
    | ⟨0, _⟩ => rfl
    | ⟨1, _⟩ => exact absurd rfl hd) (by show (o.val - a) + a = o.val; omega)

/-- A one-column block broadcast across columns reads, at (p, c), the column's entry at p. -/
theorem broadcastTo_a1_ab_apply {α : Type} {a b : ℕ} (v : (Sh2 a 1).Idx → α) (h : (Sh2 a 1).Broadcasts (Sh2 a b))
    (p : Fin a) (c : Fin b) : broadcastTo (Sh2 a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Three one-column blocks set side by side, read at column j: block j's entry. -/
theorem concat3_cols_apply {α : Type} {n : ℕ} (y₀ y₁ y₂ : (Sh2 n 1).Idx → α)
    (h : Shape.Concatenates [Sh2 n 1, Sh2 n 1, Sh2 n 1] (Sh2 n 3) 1) (p : Fin n) (j : Fin 3) :
    concatenate (Sh2 n 3) 1 [⟨Sh2 n 1, y₀⟩, ⟨Sh2 n 1, y₁⟩, ⟨Sh2 n 1, y₂⟩] h (ix2 p j) = (![y₀, y₁, y₂] j) (ix2 p (0 : Fin 1)) := by
  have hi : ∀ (k : Fin 3) (b : Fin (Sh2 n 1).rank), b.cast (rfl : (Sh2 n 1).rank = (Sh2 n 3).rank) ≠ 1 →
      ((ix2 p (0 : Fin 1) : (Sh2 n 1).Idx) b).val = ((ix2 p k : (Sh2 n 3).Idx) (b.cast rfl)).val := fun k b hb => by
    match b with
    | ⟨0, _⟩ => rfl
    | ⟨1, _⟩ => exact absurd rfl hb
  match j with
  | ⟨0, _⟩ =>
    exact concatenate_apply_piece 1 [⟨Sh2 n 1, y₀⟩, ⟨Sh2 n 1, y₁⟩, ⟨Sh2 n 1, y₂⟩] h (ix2 p _) 0 (by show (0 : ℕ) < 3; omega) (Sh2 n 1) y₀ rfl rfl 0 rfl
      (ix2 p (0 : Fin 1)) (hi _) rfl
  | ⟨1, _⟩ =>
    exact concatenate_apply_piece 1 [⟨Sh2 n 1, y₀⟩, ⟨Sh2 n 1, y₁⟩, ⟨Sh2 n 1, y₂⟩] h (ix2 p _) 1 (by show (1 : ℕ) < 3; omega) (Sh2 n 1) y₁ rfl rfl 1 rfl
      (ix2 p (0 : Fin 1)) (hi _) rfl
  | ⟨2, _⟩ =>
    exact concatenate_apply_piece 1 [⟨Sh2 n 1, y₀⟩, ⟨Sh2 n 1, y₁⟩, ⟨Sh2 n 1, y₂⟩] h (ix2 p _) 2 (by show (2 : ℕ) < 3; omega) (Sh2 n 1) y₂ rfl rfl 2 rfl
      (ix2 p (0 : Fin 1)) (hi _) rfl

/-! ## The first block's result and the gate -/

/-- The first block's two dense layers. -/
theorem pay10_row : (fun o : Fin 256 => k0_pay10 (F := Ideal) x6 x7 (k0_pay8 (F := Ideal) x0 x1 x3 x4) (k0_pay9 (F := Ideal) x5) (ix2 r o)) = mlp0 (bW x3 x4 x5 x6 x7 x8 x9 x10 x11 x12) (sR x0 r) (vR x1 r) := by
  funext o
  unfold k0_pay10 mlp0
  show kDense (R := 512) (K := 512) (N := 256) _ (truncf .bf16 x6 bitsLt_bf16_f32) x7 _ _ (ix2 r o) = _
  refine (congrFun (kDense_row _ _ x7 _ _ r) o).trans ?_
  -- the first layer's result, before the unit, along row r
  have hX : (fun c : Fin 512 => (addf (k0_pay8 (F := Ideal) x0 x1 x3 x4) (broadcastTo S512x512 (k0_pay9 (F := Ideal) x5) broadcasts_S1x512_S512x512)) (ix2 r c))
      = dense (join (by rfl : 256 + 256 = 512) (sR x0 r) (len0 (bW x3 x4 x5 x6 x7 x8 x9 x10 x11 x12) (vR x1 r)))
          (bW x3 x4 x5 x6 x7 x8 x9 x10 x11 x12).W01 (bW x3 x4 x5 x6 x7 x8 x9 x10 x11 x12).b01 := by
    funext c
    show k0_pay8 (F := Ideal) x0 x1 x3 x4 (ix2 r c) + broadcastTo S512x512 (k0_pay9 (F := Ideal) x5) broadcasts_S1x512_S512x512 (ix2 r c) = _
    rw [broadcastTo_1b_ab_apply]
    exact congrArg₂ (· + ·) (congrFun (pay8_row x0 x1 x3 x4 x5 x6 x7 x8 x9 x10 x11 x12 r) c)
      (congrFun (pay9_row x3 x4 x5 x6 x7 x8 x9 x10 x11 x12) c)
  -- after the unit
  have hS : (fun c : Fin 512 => truncf .bf16 (mulf (addf (k0_pay8 (F := Ideal) x0 x1 x3 x4) (broadcastTo S512x512 (k0_pay9 (F := Ideal) x5) broadcasts_S1x512_S512x512))
        (logistic (addf (k0_pay8 (F := Ideal) x0 x1 x3 x4) (broadcastTo S512x512 (k0_pay9 (F := Ideal) x5) broadcasts_S1x512_S512x512)))) bitsLt_bf16_f32 (ix2 r c))
      = silu (dense (join (by rfl : 256 + 256 = 512) (sR x0 r) (len0 (bW x3 x4 x5 x6 x7 x8 x9 x10 x11 x12) (vR x1 r)))
          (bW x3 x4 x5 x6 x7 x8 x9 x10 x11 x12).W01 (bW x3 x4 x5 x6 x7 x8 x9 x10 x11 x12).b01) := by
    funext c
    have h := congrFun hX c
    exact congrArg (fun t => t * Ideal.logistic t) h
  exact congrArg (fun x => dense x (bW x3 x4 x5 x6 x7 x8 x9 x10 x11 x12).W02 (bW x3 x4 x5 x6 x7 x8 x9 x10 x11 x12).b02 o) hS

/-- The gate: entries 128 … 255 of the first block's result. -/
theorem pay11_row : (fun o : Fin 128 => k0_pay11 (F := Ideal) x6 x7 (k0_pay8 (F := Ideal) x0 x1 x3 x4) (k0_pay9 (F := Ideal) x5) (ix2 r o))
    = part 128 128 (by omega) (mlp0 (bW x3 x4 x5 x6 x7 x8 x9 x10 x11 x12) (sR x0 r) (vR x1 r)) := by
  funext o
  unfold k0_pay11
  refine (slice2_axis1_eq 128 _ _ r o).trans ?_
  exact congrFun (pay10_row x0 x1 x3 x4 x5 x6 x7 x8 x9 x10 x11 x12 r) ⟨128 + o.val, by have := o.isLt; omega⟩

/-! ## The gated vector rows through the second matrix -/

/-- Gated vector row 0 through the second matrix. -/
theorem pay12_row : (fun o : Fin 129 => k0_pay12 (F := Ideal) x6 x7 (k0_pay3 (F := Ideal) x1 x3) (k0_pay8 (F := Ideal) x0 x1 x3 x4) (k0_pay9 (F := Ideal) x5) x8 (ix2 r o)) = img1 (bW x3 x4 x5 x6 x7 x8 x9 x10 x11 x12) (sR x0 r) (vR x1 r) 0 := by
  funext o
  unfold k0_pay12 img1 proj
  show matmul (DotDims.plain 512 128 129) none _ _ (constant (Sh2 512 129) .f32 0x00000000#32) (ix2 r o) = _
  rw [matmul_plain_zero_apply]
  refine Finset.sum_congr rfl fun c _ => ?_
  exact congrArg (· * x8 (ix2 c o)) (congrArg₂ (· * ·) (congrFun (pay11_row x0 x1 x3 x4 x5 x6 x7 x8 x9 x10 x11 x12 r) c) (congrFun (pay3_row x1 x3 x4 x5 x6 x7 x8 x9 x10 x11 x12 r) c))
/-- Gated vector row 1 through the second matrix. -/
theorem pay14_row : (fun o : Fin 129 => k0_pay14 (F := Ideal) x6 x7 (k0_pay5 (F := Ideal) x1 x3) (k0_pay8 (F := Ideal) x0 x1 x3 x4) (k0_pay9 (F := Ideal) x5) x8 (ix2 r o)) = img1 (bW x3 x4 x5 x6 x7 x8 x9 x10 x11 x12) (sR x0 r) (vR x1 r) 1 := by
  funext o
  unfold k0_pay14 img1 proj
  show matmul (DotDims.plain 512 128 129) none _ _ (constant (Sh2 512 129) .f32 0x00000000#32) (ix2 r o) = _
  rw [matmul_plain_zero_apply]
  refine Finset.sum_congr rfl fun c _ => ?_
  exact congrArg (· * x8 (ix2 c o)) (congrArg₂ (· * ·) (congrFun (pay11_row x0 x1 x3 x4 x5 x6 x7 x8 x9 x10 x11 x12 r) c) (congrFun (pay5_row x1 x3 x4 x5 x6 x7 x8 x9 x10 x11 x12 r) c))
/-- Gated vector row 2 through the second matrix. -/
theorem pay16_row : (fun o : Fin 129 => k0_pay16 (F := Ideal) x6 x7 (k0_pay7 (F := Ideal) x1 x3) (k0_pay8 (F := Ideal) x0 x1 x3 x4) (k0_pay9 (F := Ideal) x5) x8 (ix2 r o)) = img1 (bW x3 x4 x5 x6 x7 x8 x9 x10 x11 x12) (sR x0 r) (vR x1 r) 2 := by
  funext o
  unfold k0_pay16 img1 proj
  show matmul (DotDims.plain 512 128 129) none _ _ (constant (Sh2 512 129) .f32 0x00000000#32) (ix2 r o) = _
  rw [matmul_plain_zero_apply]
  refine Finset.sum_congr rfl fun c _ => ?_
  exact congrArg (· * x8 (ix2 c o)) (congrArg₂ (· * ·) (congrFun (pay11_row x0 x1 x3 x4 x5 x6 x7 x8 x9 x10 x11 x12 r) c) (congrFun (pay7_row x1 x3 x4 x5 x6 x7 x8 x9 x10 x11 x12 r) c))

/-- The last entry (128) of second image 0, as a one-column matrix. -/
theorem pay13_apply : (k0_pay13 (F := Ideal) x6 x7 (k0_pay3 (F := Ideal) x1 x3) (k0_pay8 (F := Ideal) x0 x1 x3 x4) (k0_pay9 (F := Ideal) x5) x8) (ix2 r (0 : Fin 1)) = img1 (bW x3 x4 x5 x6 x7 x8 x9 x10 x11 x12) (sR x0 r) (vR x1 r) 0 ⟨128, by omega⟩ := by
  unfold k0_pay13
  refine (slice2_axis1_eq 128 _ _ r (0 : Fin 1)).trans ?_
  exact congrFun (pay12_row x0 x1 x3 x4 x5 x6 x7 x8 x9 x10 x11 x12 r) ⟨128, by omega⟩
/-- The last entry of second image 1. -/
theorem pay15_apply : (k0_pay15 (F := Ideal) x6 x7 (k0_pay5 (F := Ideal) x1 x3) (k0_pay8 (F := Ideal) x0 x1 x3 x4) (k0_pay9 (F := Ideal) x5) x8) (ix2 r (0 : Fin 1)) = img1 (bW x3 x4 x5 x6 x7 x8 x9 x10 x11 x12) (sR x0 r) (vR x1 r) 1 ⟨128, by omega⟩ := by
  unfold k0_pay15
  refine (slice2_axis1_eq 128 _ _ r (0 : Fin 1)).trans ?_
  exact congrFun (pay14_row x0 x1 x3 x4 x5 x6 x7 x8 x9 x10 x11 x12 r) ⟨128, by omega⟩
/-- The last entry of second image 2. -/
theorem pay17_apply : (k0_pay17 (F := Ideal) x6 x7 (k0_pay7 (F := Ideal) x1 x3) (k0_pay8 (F := Ideal) x0 x1 x3 x4) (k0_pay9 (F := Ideal) x5) x8) (ix2 r (0 : Fin 1)) = img1 (bW x3 x4 x5 x6 x7 x8 x9 x10 x11 x12) (sR x0 r) (vR x1 r) 2 ⟨128, by omega⟩ := by
  unfold k0_pay17
  refine (slice2_axis1_eq 128 _ _ r (0 : Fin 1)).trans ?_
  exact congrFun (pay16_row x0 x1 x3 x4 x5 x6 x7 x8 x9 x10 x11 x12 r) ⟨128, by omega⟩

/-! ## The second block's operand -/

/-- The scalar part after the unit, followed by the second lengths. -/
theorem pay18_row : (fun o : Fin 256 => (k0_pay18 (F := Ideal) x6 x7 (k0_pay3 (F := Ideal) x1 x3) (k0_pay5 (F := Ideal) x1 x3) (k0_pay7 (F := Ideal) x1 x3) (k0_pay8 (F := Ideal) x0 x1 x3 x4) (k0_pay9 (F := Ideal) x5) x8) (ix2 r o))
    = join (by rfl : 128 + 128 = 256) (scal0 (bW x3 x4 x5 x6 x7 x8 x9 x10 x11 x12) (sR x0 r) (vR x1 r)) (len1 (bW x3 x4 x5 x6 x7 x8 x9 x10 x11 x12) (sR x0 r) (vR x1 r)) := by
  funext o
  unfold k0_pay18 join
  show concatenate (Sh2 512 256) 1 [⟨Sh2 512 128, _⟩, ⟨Sh2 512 128, _⟩] concatenates_S512x128_S512x128_S512x256_d1 (ix2 r o) = _
  by_cases h : o.val < 128
  · -- left of the seam: the unit on the first 128 entries of the first block's result
    rw [dif_pos h]
    refine (concat2_axis1_left _ _ _ r o h).trans ?_
    have hs : extractStridedSlice S512x128 ![0, 0] (k0_pay10 (F := Ideal) x6 x7 (k0_pay8 (F := Ideal) x0 x1 x3 x4) (k0_pay9 (F := Ideal) x5))
          slices_S512x256_o0_0_S512x128 (ix2 r ⟨o.val, h⟩)
        = part 0 128 (by omega) (mlp0 (bW x3 x4 x5 x6 x7 x8 x9 x10 x11 x12) (sR x0 r) (vR x1 r)) ⟨o.val, h⟩ :=
      (slice2_axis1_eq 0 _ _ r ⟨o.val, h⟩).trans (congrFun (pay10_row x0 x1 x3 x4 x5 x6 x7 x8 x9 x10 x11 x12 r) ⟨0 + o.val, by omega⟩)
    exact congrArg (fun t => t * Ideal.logistic t) hs
  · -- right of the seam: the root of the zero word plus the three squares
    rw [dif_neg h]
    have hn : o.val - 128 < 128 := by have := o.isLt; omega
    refine (concat2_axis1_right _ _ _ r o (by omega) hn).trans ?_
    have hq : ∀ (P : FVec Ideal S512x129 .f32) (q : Fin 129 → EReal), (fun c : Fin 129 => P (ix2 r c)) = q → ∀ n : Fin 128,
        extractStridedSlice S512x128 ![0, 0] P slices_S512x129_o0_0_S512x128 (ix2 r n) = part 0 128 (by omega) q n :=
      fun P q hP n => (slice2_axis1_eq 0 P _ r n).trans (congrFun hP ⟨0 + n.val, by have := n.isLt; omega⟩)
    have h12 := hq _ _ (pay12_row x0 x1 x3 x4 x5 x6 x7 x8 x9 x10 x11 x12 r) ⟨o.val - 128, hn⟩
    have h14 := hq _ _ (pay14_row x0 x1 x3 x4 x5 x6 x7 x8 x9 x10 x11 x12 r) ⟨o.val - 128, hn⟩
    have h16 := hq _ _ (pay16_row x0 x1 x3 x4 x5 x6 x7 x8 x9 x10 x11 x12 r) ⟨o.val - 128, hn⟩
    unfold len1 norm3
    show Ideal.sqrt (((zeroW + _ * _) + _ * _) + _ * _) = _
    rw [h12, h14, h16, Fin.sum_univ_three, ← add_assoc, ← add_assoc]

/-! ## The stored value -/

/-- The stored value from the second block's result V (column 0 the scalar, column 1 the gate), the three last
    entries A, B, C of the second images, and the positions X: gate times entry j, plus the scalar times position j. -/
theorem store_apply (V : FVec Ideal S512x2 .f32) (A B C : FVec Ideal S512x1 .f32) (X : FVec Ideal S512x3 .f32) (r : Fin 512) (j : Fin 3) :
    addf (concatenate S512x3 1 [⟨S512x1, mulf (extractStridedSlice S512x1 ![0, 1] V slices_S512x2_o0_1_S512x1) A⟩,
            ⟨S512x1, mulf (extractStridedSlice S512x1 ![0, 1] V slices_S512x2_o0_1_S512x1) B⟩,
            ⟨S512x1, mulf (extractStridedSlice S512x1 ![0, 1] V slices_S512x2_o0_1_S512x1) C⟩] concatenates_S512x1_S512x1_S512x1_S512x3_d1)
        (mulf (broadcastTo S512x3 (addf (mulf (extractStridedSlice S512x1 ![0, 0] V slices_S512x2_o0_0_S512x1)
            (broadcast S512x1 (Scalar.ofBits .f32 0x3F800000#32))) (broadcast S512x1 (Scalar.ofBits .f32 0x00000000#32))) broadcasts_S512x1_S512x3) X) (ix2 r j)
      = V (ix2 r 1) * (![A, B, C] j) (ix2 r (0 : Fin 1)) + (V (ix2 r 0) * oneW + zeroW) * X (ix2 r j) := by
  have h0 : extractStridedSlice S512x1 ![0, 0] V slices_S512x2_o0_0_S512x1 (ix2 r (0 : Fin 1)) = V (ix2 r 0) :=
    slice2_axis1_eq 0 V _ r (0 : Fin 1)
  have h1 : extractStridedSlice S512x1 ![0, 1] V slices_S512x2_o0_1_S512x1 (ix2 r (0 : Fin 1)) = V (ix2 r 1) :=
    slice2_axis1_eq 1 V _ r (0 : Fin 1)
  show concatenate (Sh2 512 3) 1 [⟨Sh2 512 1, _⟩, ⟨Sh2 512 1, _⟩, ⟨Sh2 512 1, _⟩] concatenates_S512x1_S512x1_S512x1_S512x3_d1 (ix2 r j)
      + broadcastTo (Sh2 512 3) _ broadcasts_S512x1_S512x3 (ix2 r j) * X (ix2 r j) = _
  rw [broadcastTo_a1_ab_apply, concat3_cols_apply]
  refine congrArg₂ (· + ·) ?_ (congrArg (fun t => (t * oneW + zeroW) * X (ix2 r j)) h0)
  match j with
  | ⟨0, _⟩ => exact congrArg (· * A (ix2 r (0 : Fin 1))) h1
  | ⟨1, _⟩ => exact congrArg (· * B (ix2 r (0 : Fin 1))) h1
  | ⟨2, _⟩ => exact congrArg (· * C (ix2 r (0 : Fin 1))) h1

/-- The stored value at (r, j): node r's dipole, entry j. -/
theorem pay1_apply (j : Fin 3) :
    k0_pay1 (F := Ideal) x9 x10 x11 x12 (k0_pay13 (F := Ideal) x6 x7 (k0_pay3 (F := Ideal) x1 x3) (k0_pay8 (F := Ideal) x0 x1 x3 x4) (k0_pay9 (F := Ideal) x5) x8) (k0_pay15 (F := Ideal) x6 x7 (k0_pay5 (F := Ideal) x1 x3) (k0_pay8 (F := Ideal) x0 x1 x3 x4) (k0_pay9 (F := Ideal) x5) x8) (k0_pay17 (F := Ideal) x6 x7 (k0_pay7 (F := Ideal) x1 x3) (k0_pay8 (F := Ideal) x0 x1 x3 x4) (k0_pay9 (F := Ideal) x5) x8) (k0_pay18 (F := Ideal) x6 x7 (k0_pay3 (F := Ideal) x1 x3) (k0_pay5 (F := Ideal) x1 x3) (k0_pay7 (F := Ideal) x1 x3) (k0_pay8 (F := Ideal) x0 x1 x3 x4) (k0_pay9 (F := Ideal) x5) x8) x2 (ix2 r j)
      = nodeMu (bW x3 x4 x5 x6 x7 x8 x9 x10 x11 x12) (sR x0 r) (vR x1 r) (pR x2 r) j := by
  -- the second block's first layer, before the unit, along row r
  have hA : (fun c : Fin 256 => kDense (R := 512) (K := 256) (N := 256) (k0_pay18 (F := Ideal) x6 x7 (k0_pay3 (F := Ideal) x1 x3) (k0_pay5 (F := Ideal) x1 x3) (k0_pay7 (F := Ideal) x1 x3) (k0_pay8 (F := Ideal) x0 x1 x3 x4) (k0_pay9 (F := Ideal) x5) x8) (truncf .bf16 x9 bitsLt_bf16_f32) x10
        shapeCasts_S256_S1x256 broadcasts_S1x256_S512x256 (ix2 r c))
      = dense (join (by rfl : 128 + 128 = 256) (scal0 (bW x3 x4 x5 x6 x7 x8 x9 x10 x11 x12) (sR x0 r) (vR x1 r)) (len1 (bW x3 x4 x5 x6 x7 x8 x9 x10 x11 x12) (sR x0 r) (vR x1 r)))
          (bW x3 x4 x5 x6 x7 x8 x9 x10 x11 x12).W11 (bW x3 x4 x5 x6 x7 x8 x9 x10 x11 x12).b11 := by
    refine (kDense_row _ _ x10 _ _ r).trans ?_
    exact congrArg (fun x => dense x (bW x3 x4 x5 x6 x7 x8 x9 x10 x11 x12).W11 (bW x3 x4 x5 x6 x7 x8 x9 x10 x11 x12).b11) (pay18_row x0 x1 x3 x4 x5 x6 x7 x8 x9 x10 x11 x12 r)
  -- the unit and the second layer: the second block's result along row r
  have hB : ∀ V : FVec Ideal (Sh2 512 256) .f32, (fun c : Fin 256 => V (ix2 r c))
        = dense (join (by rfl : 128 + 128 = 256) (scal0 (bW x3 x4 x5 x6 x7 x8 x9 x10 x11 x12) (sR x0 r) (vR x1 r)) (len1 (bW x3 x4 x5 x6 x7 x8 x9 x10 x11 x12) (sR x0 r) (vR x1 r)))
          (bW x3 x4 x5 x6 x7 x8 x9 x10 x11 x12).W11 (bW x3 x4 x5 x6 x7 x8 x9 x10 x11 x12).b11 →
      (fun n : Fin 2 => kDense (R := 512) (K := 256) (N := 2) (truncf .bf16 (mulf V (logistic V)) bitsLt_bf16_f32)
        (truncf .bf16 x11 bitsLt_bf16_f32) x12 shapeCasts_S2_S1x2 broadcasts_S1x2_S512x2 (ix2 r n))
      = mlp1 (bW x3 x4 x5 x6 x7 x8 x9 x10 x11 x12) (sR x0 r) (vR x1 r) := fun V hV => by
    refine (kDense_row _ _ x12 _ _ r).trans ?_
    unfold mlp1
    refine congrArg (fun x => dense x (bW x3 x4 x5 x6 x7 x8 x9 x10 x11 x12).W12 (bW x3 x4 x5 x6 x7 x8 x9 x10 x11 x12).b12) ?_
    funext c
    exact congrArg (fun t => t * Ideal.logistic t) (congrFun hV c)
  have hB' := hB _ hA
  unfold k0_pay1 nodeMu
  refine (store_apply _ _ _ _ _ r j).trans ?_
  refine congrArg₂ (· + ·) (congrArg₂ (· * ·) (congrFun hB' 1) ?_)
    (congrArg (fun t => (t * oneW + zeroW) * x2 (ix2 r j)) (congrFun hB' 0))
  match j with
  | ⟨0, _⟩ => exact pay13_apply x0 x1 x3 x4 x5 x6 x7 x8 x9 x10 x11 x12 r
  | ⟨1, _⟩ => exact pay15_apply x0 x1 x3 x4 x5 x6 x7 x8 x9 x10 x11 x12 r
  | ⟨2, _⟩ => exact pay17_apply x0 x1 x3 x4 x5 x6 x7 x8 x9 x10 x11 x12 r

end Cert.KernelIdeal.Rows

end
-- ==== Proof.KernelValue.lean ====
/-
  What the kernel's program leaves in its result: the block written back at each grid point is 512 nodes' dipoles,
  the blocks cover the node array, and the host lines after the region turn the node array into the result.
-/
import proofs.«112560_j86973087744435_1_alg».proof.Proof.Gen.KernelIdeal.Frame
import proofs.«112560_j86973087744435_1_alg».proof.Proof.KernelRowsB
import Idealize.ShloMosaic.Lib.Pipeline.Value
import Idealize.ShloMosaic.Lib.StableHlo.Run
import Idealize.ShloMosaic.Lib.Tactic

set_option maxRecDepth 16384

noncomputable section

namespace Cert.KernelIdeal.NodeValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rows Cert.NodeSpec

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store, read at (r, q): node r of the block, dipole entry q. -/
theorem out_apply (x0 : Vec Ideal S512x256 .f32) (x1 : Vec Ideal S512x3x256 .f32) (x2 : Vec Ideal S512x3 .f32)
    (x3 : Vec Ideal S256x384 .f32) (x4 : Vec Ideal S512x512 .f32) (x5 : Vec Ideal S512 .f32) (x6 : Vec Ideal S512x256 .f32)
    (x7 : Vec Ideal S256 .f32) (x8 : Vec Ideal S128x129 .f32) (x9 : Vec Ideal S256x256 .f32) (x10 : Vec Ideal S256 .f32)
    (x11 : Vec Ideal S256x2 .f32) (x12 : Vec Ideal S2 .f32) (r : Fin 512) (q : Fin 3) :
    out0_13 (F := Ideal) x0 x1 x2 x3 x4 x5 x6 x7 x8 x9 x10 x11 x12 (ix2 r q)
      = nodeMu (bW x3 x4 x5 x6 x7 x8 x9 x10 x11 x12) (sR x0 r) (vR x1 r) (pR x2 r) q := by
  unfold out0_13
  rw [View.canon_unit_zero hz2]
  simp only [View.ld_unit_zero (S := S512x256) hz2, View.ld_unit_zero (S := S512x3x256) hz3, View.ld_unit_zero (S := S512x3) hz2,
    View.ld_unit_zero (S := S256x384) hz2, View.ld_unit_zero (S := S512x512) hz2, View.ld_unit_zero (S := S512) hz1,
    View.ld_unit_zero (S := S256) hz1, View.ld_unit_zero (S := S128x129) hz2, View.ld_unit_zero (S := S256x256) hz2,
    View.ld_unit_zero (S := S256x2) hz2, View.ld_unit_zero (S := S2) hz1]
  exact pay1_apply x0 x1 x2 x3 x4 x5 x6 x7 x8 x9 x10 x11 x12 r q

variable (m : (ℓ : Loc nD τ sig) → Buf (Elt Ideal) ℓ) (ρ : Dev nD → PrngReg)

/-- The printed index maps over the grid: the three node windows and the result window move one block of 512 rows per
    point; the ten weight windows stay on their one block. -/
theorem idx_node : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- Row r of the scalar block at point t is row 512 t + r of the scalar array. -/
theorem sblk_apply (c : Dev nD) (t : Fin cfg0.N) (r : Fin 512) (f : Fin 256) (n : Fin 131072)
    (hn : n.val = 512 * t.val + r.val) :
    (iblk m c 0 t : Vec Ideal S512x256 .f32) (ix2 r f)
      = (m ((c : Thread nD τ).loc main_arg1) : S131072x256.Idx → EReal) (ix2 n f) := by
  obtain ⟨e0, e1, -⟩ := idx_node t
  unfold iblk
  rw [View.read_apply]
  show V m c main_arg1 _ = m (c.tc.loc main_arg1) _
  unfold V
  congr 1
  funext a
  apply Fin.ext
  match a with
  | ⟨0, _⟩ => show win0_0.index t 0 * 512 + 1 * r.val = n.val; rw [e0, hn]; omega
  | ⟨1, _⟩ => show win0_0.index t 1 * 256 + 1 * f.val = f.val; rw [e1]; omega

/-- Vector row i of node r of the vector block at point t is that row of node 512 t + r of the vector array. -/
theorem vblk_apply (c : Dev nD) (t : Fin cfg0.N) (r : Fin 512) (i : Fin 3) (f : Fin 256) (n : Fin 131072)
    (hn : n.val = 512 * t.val + r.val) :
    (iblk m c 1 t : Vec Ideal S512x3x256 .f32) (ix3 r i f)
      = (m ((c : Thread nD τ).loc main_arg2) : S131072x3x256.Idx → EReal) (ix3 n i f) := by
  obtain ⟨-, -, e0, e1, e2, -⟩ := idx_node t
  unfold iblk
  rw [View.read_apply]
  show V m c main_arg2 _ = m (c.tc.loc main_arg2) _
  unfold V
  congr 1
  funext a
  apply Fin.ext
  match a with
  | ⟨0, _⟩ => show win0_1.index t 0 * 512 + 1 * r.val = n.val; rw [e0, hn]; omega
  | ⟨1, _⟩ => show win0_1.index t 1 * 3 + 1 * i.val = i.val; rw [e1]; omega
  | ⟨2, _⟩ => show win0_1.index t 2 * 256 + 1 * f.val = f.val; rw [e2]; omega

/-- Row r of the position block at point t is row 512 t + r of the position array. -/
theorem pblk_apply (c : Dev nD) (t : Fin cfg0.N) (r : Fin 512) (j : Fin 3) (n : Fin 131072)
    (hn : n.val = 512 * t.val + r.val) :
    (iblk m c 2 t : Vec Ideal S512x3 .f32) (ix2 r j)
      = (m ((c : Thread nD τ).loc main_arg0) : S131072x3.Idx → EReal) (ix2 n j) := by
  obtain ⟨-, -, -, -, -, e0, e1, -⟩ := idx_node t
  unfold iblk
  rw [View.read_apply]
  show V m c main_arg0 _ = m (c.tc.loc main_arg0) _
  unfold V
  congr 1
  funext a
  apply Fin.ext
  match a with
  | ⟨0, _⟩ => show win0_2.index t 0 * 512 + 1 * r.val = n.val; rw [e0, hn]; omega
  | ⟨1, _⟩ => show win0_2.index t 1 * 3 + 1 * j.val = j.val; rw [e1]; omega

/-- The ten weight windows stay on block 0 of their arrays. -/
theorem idx_wts : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0 :=
  (by decide +kernel : ∀ t : Fin grid0.N, _)

/-- Each weight window's block, at every point, is its whole array. -/
theorem wblk3 (c : Dev nD) (t : Fin cfg0.N) :
    (iblk m c 3 t : Vec Ideal S256x384 .f32) = (m ((c : Thread nD τ).loc main_arg4) : S256x384.Idx → EReal) := by
  obtain ⟨⟨e0, e1⟩, -⟩ := idx_wts t
  funext y
  unfold iblk
  rw [View.read_apply]
  show V m c main_arg4 _ = m (c.tc.loc main_arg4) _
  unfold V
  congr 1
  funext a
  apply Fin.ext
  match a with
  | ⟨0, _⟩ => show win0_3.index t 0 * 256 + 1 * (y 0).val = (y 0).val; rw [e0]; omega
  | ⟨1, _⟩ => show win0_3.index t 1 * 384 + 1 * (y 1).val = (y 1).val; rw [e1]; omega
theorem wblk4 (c : Dev nD) (t : Fin cfg0.N) :
    (iblk m c 4 t : Vec Ideal S512x512 .f32) = (m ((c : Thread nD τ).loc main_arg5) : S512x512.Idx → EReal) := by
  obtain ⟨-, ⟨e0, e1⟩, -⟩ := idx_wts t
  funext y
  unfold iblk
  rw [View.read_apply]
  show V m c main_arg5 _ = m (c.tc.loc main_arg5) _
  unfold V
  congr 1
  funext a
  apply Fin.ext
  match a with
  | ⟨0, _⟩ => show win0_4.index t 0 * 512 + 1 * (y 0).val = (y 0).val; rw [e0]; omega
  | ⟨1, _⟩ => show win0_4.index t 1 * 512 + 1 * (y 1).val = (y 1).val; rw [e1]; omega
theorem wblk5 (c : Dev nD) (t : Fin cfg0.N) :
    (iblk m c 5 t : Vec Ideal S512 .f32) = (m ((c : Thread nD τ).loc main_arg6) : S512.Idx → EReal) := by
  obtain ⟨-, -, e0, -⟩ := idx_wts t
  funext y
  unfold iblk
  rw [View.read_apply]
  show V m c main_arg6 _ = m (c.tc.loc main_arg6) _
  unfold V
  congr 1
  funext a
  apply Fin.ext
  match a with
  | ⟨0, _⟩ => show win0_5.index t 0 * 512 + 1 * (y 0).val = (y 0).val; rw [e0]; omega
theorem wblk6 (c : Dev nD) (t : Fin cfg0.N) :
    (iblk m c 6 t : Vec Ideal S512x256 .f32) = (m ((c : Thread nD τ).loc main_arg7) : S512x256.Idx → EReal) := by
  obtain ⟨-, -, -, ⟨e0, e1⟩, -⟩ := idx_wts t
  funext y
  unfold iblk
  rw [View.read_apply]
  show V m c main_arg7 _ = m (c.tc.loc main_arg7) _
  unfold V
  congr 1
  funext a
  apply Fin.ext
  match a with
  | ⟨0, _⟩ => show win0_6.index t 0 * 512 + 1 * (y 0).val = (y 0).val; rw [e0]; omega
  | ⟨1, _⟩ => show win0_6.index t 1 * 256 + 1 * (y 1).val = (y 1).val; rw [e1]; omega
theorem wblk7 (c : Dev nD) (t : Fin cfg0.N) :
    (iblk m c 7 t : Vec Ideal S256 .f32) = (m ((c : Thread nD τ).loc main_arg8) : S256.Idx → EReal) := by
  obtain ⟨-, -, -, -, e0, -⟩ := idx_wts t
  funext y
  unfold iblk
  rw [View.read_apply]
  show V m c main_arg8 _ = m (c.tc.loc main_arg8) _
  unfold V
  congr 1
  funext a
  apply Fin.ext
  match a with
  | ⟨0, _⟩ => show win0_7.index t 0 * 256 + 1 * (y 0).val = (y 0).val; rw [e0]; omega
theorem wblk8 (c : Dev nD) (t : Fin cfg0.N) :
    (iblk m c 8 t : Vec Ideal S128x129 .f32) = (m ((c : Thread nD τ).loc main_arg9) : S128x129.Idx → EReal) := by
  obtain ⟨-, -, -, -, -, ⟨e0, e1⟩, -⟩ := idx_wts t
  funext y
  unfold iblk
  rw [View.read_apply]
  show V m c main_arg9 _ = m (c.tc.loc main_arg9) _
  unfold V
  congr 1
  funext a
  apply Fin.ext
  match a with
  | ⟨0, _⟩ => show win0_8.index t 0 * 128 + 1 * (y 0).val = (y 0).val; rw [e0]; omega
  | ⟨1, _⟩ => show win0_8.index t 1 * 129 + 1 * (y 1).val = (y 1).val; rw [e1]; omega
theorem wblk9 (c : Dev nD) (t : Fin cfg0.N) :
    (iblk m c 9 t : Vec Ideal S256x256 .f32) = (m ((c : Thread nD τ).loc main_arg10) : S256x256.Idx → EReal) := by
  obtain ⟨-, -, -, -, -, -, ⟨e0, e1⟩, -⟩ := idx_wts t
  funext y
  unfold iblk
  rw [View.read_apply]
  show V m c main_arg10 _ = m (c.tc.loc main_arg10) _
  unfold V
  congr 1
  funext a
  apply Fin.ext
  match a with
  | ⟨0, _⟩ => show win0_9.index t 0 * 256 + 1 * (y 0).val = (y 0).val; rw [e0]; omega
  | ⟨1, _⟩ => show win0_9.index t 1 * 256 + 1 * (y 1).val = (y 1).val; rw [e1]; omega
theorem wblk10 (c : Dev nD) (t : Fin cfg0.N) :
    (iblk m c 10 t : Vec Ideal S256 .f32) = (m ((c : Thread nD τ).loc main_arg11) : S256.Idx → EReal) := by
  obtain ⟨-, -, -, -, -, -, -, e0, -⟩ := idx_wts t
  funext y
  unfold iblk
  rw [View.read_apply]
  show V m c main_arg11 _ = m (c.tc.loc main_arg11) _
  unfold V
  congr 1
  funext a
  apply Fin.ext
  match a with
  | ⟨0, _⟩ => show win0_10.index t 0 * 256 + 1 * (y 0).val = (y 0).val; rw [e0]; omega
theorem wblk11 (c : Dev nD) (t : Fin cfg0.N) :
    (iblk m c 11 t : Vec Ideal S256x2 .f32) = (m ((c : Thread nD τ).loc main_arg12) : S256x2.Idx → EReal) := by
  obtain ⟨-, -, -, -, -, -, -, -, ⟨e0, e1⟩, -⟩ := idx_wts t
  funext y
  unfold iblk
  rw [View.read_apply]
  show V m c main_arg12 _ = m (c.tc.loc main_arg12) _
  unfold V
  congr 1
  funext a
  apply Fin.ext
  match a with
  | ⟨0, _⟩ => show win0_11.index t 0 * 256 + 1 * (y 0).val = (y 0).val; rw [e0]; omega
  | ⟨1, _⟩ => show win0_11.index t 1 * 2 + 1 * (y 1).val = (y 1).val; rw [e1]; omega
theorem wblk12 (c : Dev nD) (t : Fin cfg0.N) :
    (iblk m c 12 t : Vec Ideal S2 .f32) = (m ((c : Thread nD τ).loc main_arg13) : S2.Idx → EReal) := by
  obtain ⟨-, -, -, -, -, -, -, -, -, e0⟩ := idx_wts t
  funext y
  unfold iblk
  rw [View.read_apply]
  show V m c main_arg13 _ = m (c.tc.loc main_arg13) _
  unfold V
  congr 1
  funext a
  apply Fin.ext
  match a with
  | ⟨0, _⟩ => show win0_12.index t 0 * 2 + 1 * (y 0).val = (y 0).val; rw [e0]; omega

/-- The weights, from the ten weight arguments as launched. -/
abbrev argW (c : Dev nD) : Weights :=
  Weights.ofArrays (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- Every node's dipole, from the arguments as launched: what the region's result array ends holding. -/
abbrev nodes (c : Dev nD) : Buf (Elt Ideal) ((c : Thread nD τ).loc main_v0) :=
  nodeArr (argW m c) (m ((c : Thread nD τ).loc main_arg1)) (m ((c : Thread nD τ).loc main_arg2)) (m ((c : Thread nD τ).loc main_arg0))

/-- What point t writes back is block t of the node array: 512 nodes' dipoles. -/
theorem flushed_eq (c : Dev nD) (t : Fin cfg0.N) :
    (dats m 0 c).flushed 13 t = ((cfg0.win 13).blk t).view.read (Elt Ideal) (nodes m c) := by
  obtain ⟨-, -, -, -, -, -, -, e0, e1⟩ := idx_node t
  have hN : cfg0.N = 256 := N_0
  show (cfg0.win 13).cut (grid0.coords t) ((dats m 0 c).after 13 t) = _
  rw [after0_13]
  funext j
  obtain ⟨r, q, rfl⟩ : ∃ (r : Fin 512) (q : Fin 3), j = ix2 r q := ⟨j 0, j 1, eq_ix2 j⟩
  have hlt : 512 * t.val + r.val < 131072 := by have := t.isLt; have := r.isLt; omega
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r q).trans ?_
  rw [View.read_apply]
  have hemb : ((cfg0.win 13).blk t).view.emb (ix2 r q) = ix2 (⟨512 * t.val + r.val, hlt⟩ : Fin 131072) q := by
    funext a
    apply Fin.ext
    match a with
    | ⟨0, _⟩ => show win0_13.index t 0 * 512 + 1 * r.val = 512 * t.val + r.val; rw [e0]; omega
    | ⟨1, _⟩ => show win0_13.index t 1 * 3 + 1 * q.val = q.val; rw [e1]; omega
  rw [hemb]
  show _ = nodeAt (argW m c) _ _ _ ⟨512 * t.val + r.val, hlt⟩ q
  unfold nodeAt
  have hW : bW (iblk m c 3 t) (iblk m c 4 t) (iblk m c 5 t) (iblk m c 6 t) (iblk m c 7 t) (iblk m c 8 t) (iblk m c 9 t) (iblk m c 10 t) (iblk m c 11 t) (iblk m c 12 t) = argW m c := by
    unfold bW argW
    rw [wblk3 m c t, wblk4 m c t, wblk5 m c t, wblk6 m c t, wblk7 m c t, wblk8 m c t, wblk9 m c t, wblk10 m c t,
      wblk11 m c t, wblk12 m c t]
  have hs : sR (iblk m c 0 t) r = fun f => (m ((c : Thread nD τ).loc main_arg1) : S131072x256.Idx → EReal) (ix2 (⟨512 * t.val + r.val, hlt⟩ : Fin 131072) f) :=
    funext fun f => sblk_apply m c t r f _ rfl
  have hv : vR (iblk m c 1 t) r = fun i f => (m ((c : Thread nD τ).loc main_arg2) : S131072x3x256.Idx → EReal) (ix3 (⟨512 * t.val + r.val, hlt⟩ : Fin 131072) i f) :=
    funext fun i => funext fun f => vblk_apply m c t r i f _ rfl
  have hp : pR (iblk m c 2 t) r = fun k => (m ((c : Thread nD τ).loc main_arg0) : S131072x3.Idx → EReal) (ix2 (⟨512 * t.val + r.val, hlt⟩ : Fin 131072) k) :=
    funext fun k => pblk_apply m c t r k _ rfl
  rw [hW, hs, hv, hp]

/-- An index of the node array is in point t's block iff its row is one of the block's 512 rows. -/
theorem mem_blk (t : Fin cfg0.N) (i : S131072x3.Idx) :
    i ∈ ((cfg0.win 13).blk t).view.set ↔ ∀ a : Fin 2, win0_13.index t a * S512x3.size a ≤ (i a).val ∧ (i a).val < win0_13.index t a * S512x3.size a + S512x3.size a := by
  show i ∈ ((View.whole main_v0).slice (win0_13.rect t)).set ↔ _
  rw [View.set_slice_whole, Rect.mem_set_unit]
  exact Iff.rfl

/-- The region's result array after the run: every node's dipole (row n lies in the block of point n / 512). -/
theorem final13 (c : Dev nD) : (dats m 0 c).arrAt 13 cfg0.N = nodes m c :=
  (dats m 0 c).arrAt_eq_of_cover 13 (nodes m c) (fun t _ => flushed_eq m c t) fun i => by
    have hN : cfg0.N = 256 := N_0
    have hi0 : (i 0).val < 131072 := (i 0).isLt
    have hi1 : (i 1).val < 3 := (i 1).isLt
    let t : Fin cfg0.N := ⟨(i 0).val / 512, by omega⟩
    obtain ⟨-, -, -, -, -, -, -, e0, e1⟩ := idx_node t
    refine ⟨t, flush0_13 t, ?_⟩
    rw [mem_blk]
    intro a
    match a with
    | ⟨0, _⟩ => show win0_13.index t 0 * 512 ≤ (i 0).val ∧ (i 0).val < win0_13.index t 0 * 512 + 512; rw [e0]; show (i 0).val / 512 * 512 ≤ (i 0).val ∧ (i 0).val < (i 0).val / 512 * 512 + 512; omega
    | ⟨1, _⟩ => show win0_13.index t 1 * 3 ≤ (i 1).val ∧ (i 1).val < win0_13.index t 1 * 3 + 3; rw [e1]; omega

/-- The host lines after the region, as one function of the node array and the graph index array: the dipoles
    summed per graph, the Euclidean length of each graph's dipole, minus the zero word, over the one word. -/
def tail (nodesArr : (⟨S131072x3, .f32⟩ : BufTy).Contents (Elt Ideal)) (gidx : (⟨S131072, .i32⟩ : BufTy).Contents (Elt Ideal)) :
    (⟨S2048x1, .f32⟩ : BufTy).Contents (Elt Ideal) :=
  let g : (⟨S2048x3, .f32⟩ : BufTy).Contents (Elt Ideal) :=
    Host.scatterAdd (F := Ideal) scatter_S2048x3_S131072x1_S131072x3_1_0_0_1
      (broadcastInDim S2048x3 ![] bcast_S_S2048x3 (constant (F := Ideal) S_ .f32 0x00000000#32))
      (broadcastInDim S131072x1 ![0] bcast_S131072_S131072x1_0 gidx) nodesArr
  Host.divf (F := Ideal)
    (subf (Host.sqrt (F := Ideal) (broadcastInDim S2048x1 ![0] bcast_S2048_S2048x1_0
        (Host.reduceAdd (F := Ideal) (mulf g g) (constant (F := Ideal) S_ .f32 0x00000000#32) reducesTo_S2048x3_S2048_d1 h_S_)))
      (broadcastInDim S2048x1 ![] bcast_S_S2048x1 (constant (F := Ideal) S_ .f32 0x00000000#32)))
    (broadcastInDim S2048x1 ![] bcast_S_S2048x1 (constant (F := Ideal) S_ .f32 0x3F800000#32))

theorem tail_eq (c : Dev nD) :
    Pipeline.afterTail₀ cfgs (dats m) 0 (V0 m) [hostOps1, hostOps1_1, hostOps1_2] c main_v8
      = tail (nodes m c) (m ((c : Thread nD τ).loc main_arg3)) := by
  unfold Pipeline.afterTail₀
  simp only [hostOps1, hostOps1_1, hostOps1_2, List.flatten_cons, List.flatten_nil, List.append_nil, List.cons_append, List.nil_append]
  after_results
  simp only [StableHlo.TRef.ofBuf, StableHlo.TRef.toBuf, cast_eq]
  have hv0 : Pipeline.withArrays (cfgs 0).spec c (V0 m c) (fun w => (dats m 0 c).arrAt w (cfgs 0).N) (Proc.tc.devRef main_v0)
      = nodes m c :=
    (Pipeline.withArrays_arr spec0 launch0.win.arr_inj c _ _ 13).trans (final13 m c)
  have hv3 : Pipeline.withArrays (cfgs 0).spec c (V0 m c) (fun w => (dats m 0 c).arrAt w (cfgs 0).N) (Proc.tc.devRef main_arg3)
      = m ((c : Thread nD τ).loc main_arg3) :=
    (Pipeline.withArrays_of_ne spec0 c (V0 m c) _ main_arg3 (by exact (by decide : ∀ w, Pipeline.arrRef spec0 w ≠ main_arg3))).trans
      (V_main_arg3 m c)
  rw [hv0, hv3]
  rfl

/-- The kernel's program, run: its result is the tail of the node array, and its arguments end as launched (a staged
    argument by the run's post on its window's array, the graph index array by the post on the buffers no window stages). -/
theorem run : θ_run defs (onTc (τ := τ) (main (F := Ideal))) ⟨m, fun _ => 0, ρ⟩ fun r => ∀ c : Dev nD,
      r.2.mem ((c.tc : Thread nD τ).loc main_v8) = tail (nodes m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
      ⟨((h c).2 main_v8 (Pipeline.mem_restRefs_of main_v8 (by decide) (by decide))).trans (tail_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c)))⟩)
    (run_main m ρ)

end Cert.KernelIdeal.NodeValue

end
-- ==== Proof.RefRowsDefs.lean ====
/-
  Names for one node of the whole arrays: the weights as the host program reads them, and row n of the scalar,
  vector and position arrays.
-/
import proofs.«112560_j86973087744435_1_alg».proof.ReferenceIdeal
import proofs.«112560_j86973087744435_1_alg».proof.Proof.NodeArray

noncomputable section

namespace Cert.ReferenceIdeal.Rows

open Idealize.ShloMosaic Idealize.ShloMosaic.ValueIdx Cert.ReferenceIdeal
open Cert.NodeSpec Cert.LibDenseRows

variable (x0 : (⟨S131072x3, .f32⟩ : BufTy).Contents (Elt Ideal)) (x1 : (⟨S131072x256, .f32⟩ : BufTy).Contents (Elt Ideal)) (x2 : (⟨S131072x3x256, .f32⟩ : BufTy).Contents (Elt Ideal))
  (x4 : (⟨S256x384, .f32⟩ : BufTy).Contents (Elt Ideal)) (x5 : (⟨S512x512, .f32⟩ : BufTy).Contents (Elt Ideal)) (x6 : (⟨S512, .f32⟩ : BufTy).Contents (Elt Ideal)) (x7 : (⟨S512x256, .f32⟩ : BufTy).Contents (Elt Ideal))
  (x8 : (⟨S256, .f32⟩ : BufTy).Contents (Elt Ideal)) (x9 : (⟨S128x129, .f32⟩ : BufTy).Contents (Elt Ideal)) (x10 : (⟨S256x256, .f32⟩ : BufTy).Contents (Elt Ideal)) (x11 : (⟨S256, .f32⟩ : BufTy).Contents (Elt Ideal))
  (x12 : (⟨S256x2, .f32⟩ : BufTy).Contents (Elt Ideal)) (x13 : (⟨S2, .f32⟩ : BufTy).Contents (Elt Ideal)) (n : Fin 131072)

/-- The weights, from the ten weight arrays. -/
abbrev aW : Weights := Weights.ofArrays x4 x5 x6 x7 x8 x9 x10 x11 x12 x13
/-- Row n of the scalar array. -/
abbrev sN : Fin 256 → EReal := fun f => x1 (ix2 n f)
/-- Row n of the vector array: three rows of 256. -/
abbrev vN : Fin 3 → Fin 256 → EReal := fun i f => x2 (ix3 n i f)
/-- Row n of the position array. -/
abbrev pN : Fin 3 → EReal := fun j => x0 (ix2 n j)

end Cert.ReferenceIdeal.Rows

end
-- ==== Proof.RefRowsA.lean ====
/-
  The host program's first gated block, read at node n: the vector rows through the first matrix, the second parts
  of the images, the lengths of the first parts, and the two dense layers on the scalar row followed by the lengths.
-/
import proofs.«112560_j86973087744435_1_alg».proof.Proof.RefRowsDefs
import proofs.«112560_j86973087744435_1_alg».proof.Proof.RefRead
import Idealize.ShloMosaic.Lib.ValueLayout

noncomputable section

namespace Cert.ReferenceIdeal.Rows

open Idealize.ShloMosaic Idealize.ShloMosaic.ValueIdx Cert.ReferenceIdeal
open Cert.NodeSpec Cert.LibDenseRows
open Cert.ReferenceIdeal.ReadP

variable (x0 : (⟨S131072x3, .f32⟩ : BufTy).Contents (Elt Ideal)) (x1 : (⟨S131072x256, .f32⟩ : BufTy).Contents (Elt Ideal)) (x2 : (⟨S131072x3x256, .f32⟩ : BufTy).Contents (Elt Ideal))
  (x4 : (⟨S256x384, .f32⟩ : BufTy).Contents (Elt Ideal)) (x5 : (⟨S512x512, .f32⟩ : BufTy).Contents (Elt Ideal)) (x6 : (⟨S512, .f32⟩ : BufTy).Contents (Elt Ideal)) (x7 : (⟨S512x256, .f32⟩ : BufTy).Contents (Elt Ideal))
  (x8 : (⟨S256, .f32⟩ : BufTy).Contents (Elt Ideal)) (x9 : (⟨S128x129, .f32⟩ : BufTy).Contents (Elt Ideal)) (x10 : (⟨S256x256, .f32⟩ : BufTy).Contents (Elt Ideal)) (x11 : (⟨S256, .f32⟩ : BufTy).Contents (Elt Ideal))
  (x12 : (⟨S256x2, .f32⟩ : BufTy).Contents (Elt Ideal)) (x13 : (⟨S2, .f32⟩ : BufTy).Contents (Elt Ideal)) (n : Fin 131072)

/-- Vector row i of node n through the first matrix. -/
theorem v0_row (i : Fin 3) : (fun o : Fin 384 => val_main_v0 (F := Ideal) x2 x4 (ix3 n i o)) = img0 (aW x4 x5 x6 x7 x8 x9 x10 x11 x12 x13) (vN x2 n) i := by
  funext o
  unfold img0 proj
  rw [val_main_v0_apply]
  refine Finset.sum_congr rfl fun k _ => ?_
  have el : lidx_main_v0 (ix3 n i o) k = ix3 n i k := funext fun a => Fin.ext (by
    match a with
    | ⟨0, _⟩ => rfl
    | ⟨1, _⟩ => rfl
    | ⟨2, _⟩ => rfl)
  have er : ridx_main_v0 (ix3 n i o) k = ix2 k o := funext fun a => Fin.ext (by
    match a with
    | ⟨0, _⟩ => rfl
    | ⟨1, _⟩ => rfl)
  rw [el, er]
  rfl

/-- The second part (entries 256 … 383) of image i. -/
theorem v2_row (i : Fin 3) : (fun o : Fin 128 => val_main_v2 (F := Ideal) x2 x4 (ix3 n i o))
    = part 256 128 (by omega) (img0 (aW x4 x5 x6 x7 x8 x9 x10 x11 x12 x13) (vN x2 n) i) := by
  funext o
  unfold part
  rw [val_main_v2_apply]
  have e : idx_main_v2 (ix3 n i o) = ix3 n i ⟨256 + o.val, by have := o.isLt; omega⟩ := funext fun a => Fin.ext (by
    match a with
    | ⟨0, _⟩ => rfl
    | ⟨1, _⟩ => rfl
    | ⟨2, _⟩ => rfl)
  rw [e]
  exact congrFun (v0_row x2 x4 x5 x6 x7 x8 x9 x10 x11 x12 x13 n i) _

/-- The lengths of the three first parts. -/
theorem v3_row : (fun f : Fin 256 => val_main_v3 (F := Ideal) x2 x4 (ix2 n f)) = len0 (aW x4 x5 x6 x7 x8 x9 x10 x11 x12 x13) (vN x2 n) := by
  funext f
  unfold len0 norm3
  rw [val_main_v3_apply, val_main_call0_v1_apply, val_main_call0_cst_apply]
  refine congrArg Ideal.sqrt (congrArg (zeroW + ·) (Finset.sum_congr rfl fun k _ => ?_))
  rw [val_main_call0_v0_apply, val_main_v1_apply]
  have e : idx_main_v1 (idx_main_call0_v1 (ix2 n f) k) = ix3 n k ⟨0 + f.val, by have := f.isLt; omega⟩ :=
    funext fun a => Fin.ext (by
      match a with
      | ⟨0, _⟩ => rfl
      | ⟨1, _⟩ => rfl
      | ⟨2, _⟩ => exact (Nat.zero_add _).symm)
  rw [e]
  exact congrArg (fun t => t * t) (congrFun (v0_row x2 x4 x5 x6 x7 x8 x9 x10 x11 x12 x13 n k) ⟨0 + f.val, by have := f.isLt; omega⟩)

/-- The f32 word of one is the number one. -/
theorem one_word : Ideal.ofBits .f32 0x3F800000#32 = 1 := IdealRules.sign_bit.ideal_onePat .f32

/-- The scalar row of node n followed by the lengths. -/
theorem v4_row : (fun c : Fin 512 => val_main_v4 (F := Ideal) x1 x2 x4 (ix2 n c)) = join (by rfl : 256 + 256 = 512) (sN x1 n) (len0 (aW x4 x5 x6 x7 x8 x9 x10 x11 x12 x13) (vN x2 n)) := by
  funext c
  unfold val_main_v4 join
  by_cases h : c.val < 256
  · rw [dif_pos h]
    exact concatenate_pair_apply_left 1 x1 _ Gen.concatenates_S131072x256_S131072x256_S131072x512_d1 (ix2 n c) rfl (ix2 n ⟨c.val, h⟩)
      (fun b => by match b with
        | ⟨0, _⟩ => rfl
        | ⟨1, _⟩ => rfl)
  · rw [dif_neg h]
    refine (concatenate_pair_apply_right 1 x1 _ Gen.concatenates_S131072x256_S131072x256_S131072x512_d1 (ix2 n c) rfl rfl
      (ix2 n ⟨c.val - 256, by have := c.isLt; omega⟩) (fun b hb => ?_) ?_).trans ?_
    · match b with
      | ⟨0, _⟩ => rfl
      | ⟨1, _⟩ => exact absurd rfl hb
    · show c.val - 256 + 256 = c.val
      omega
    · exact congrFun (v3_row x2 x4 x5 x6 x7 x8 x9 x10 x11 x12 x13 n) _

/-- The first dense layer on the scalar row followed by the lengths. -/
theorem v8_row : (fun k : Fin 512 => val_main_v8 (F := Ideal) x1 x2 x4 x5 x6 (ix2 n k))
    = dense (join (by rfl : 256 + 256 = 512) (sN x1 n) (len0 (aW x4 x5 x6 x7 x8 x9 x10 x11 x12 x13) (vN x2 n))) (aW x4 x5 x6 x7 x8 x9 x10 x11 x12 x13).W01 (aW x4 x5 x6 x7 x8 x9 x10 x11 x12 x13).b01 := by
  funext k
  unfold dense
  rw [val_main_v8_apply, val_main_v5_apply, val_main_v7_apply, val_main_v6_apply, Ideal.addf_def]
  refine congrArg₂ (· + ·) (Finset.sum_congr rfl fun c _ => ?_) ?_
  · have el : lidx_main_v5 (ix2 n k) c = ix2 n c := funext fun a => Fin.ext (by
      match a with
      | ⟨0, _⟩ => rfl
      | ⟨1, _⟩ => rfl)
    have er : ridx_main_v5 (ix2 n k) c = ix2 c k := funext fun a => Fin.ext (by
      match a with
      | ⟨0, _⟩ => rfl
      | ⟨1, _⟩ => rfl)
    rw [el, er]
    exact congrArg (fun t => t * x5 (ix2 c k)) (congrFun (v4_row x1 x2 x4 x5 x6 x7 x8 x9 x10 x11 x12 x13 n) c)
  · exact congrArg x6 (funext fun a => Fin.ext (by
      match a with
      | ⟨0, _⟩ => rfl))

/-- The unit as the host spells it, x · (1 / (1 + exp (−x))) with the word of one, is x · σ(x). -/
theorem v9_apply (i : S131072x512.Idx) : val_main_v9 (F := Ideal) x1 x2 x4 x5 x6 i
    = val_main_v8 (F := Ideal) x1 x2 x4 x5 x6 i * Ideal.logistic (val_main_v8 (F := Ideal) x1 x2 x4 x5 x6 i) := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply]
  show _ * Ideal.div (Ideal.ofBits .f32 0x3F800000#32) (Ideal.ofBits .f32 0x3F800000#32 + Ideal.exp (-_)) = _
  rw [one_word]
  rfl

/-- The first dense layer followed by the unit. -/
theorem v9_row : (fun k : Fin 512 => val_main_v9 (F := Ideal) x1 x2 x4 x5 x6 (ix2 n k))
    = silu (dense (join (by rfl : 256 + 256 = 512) (sN x1 n) (len0 (aW x4 x5 x6 x7 x8 x9 x10 x11 x12 x13) (vN x2 n))) (aW x4 x5 x6 x7 x8 x9 x10 x11 x12 x13).W01 (aW x4 x5 x6 x7 x8 x9 x10 x11 x12 x13).b01) := by
  funext k
  unfold silu
  rw [← v8_row x1 x2 x4 x5 x6 x7 x8 x9 x10 x11 x12 x13 n]
  exact v9_apply x1 x2 x4 x5 x6 (ix2 n k)

/-- The first block's two dense layers. -/
theorem v13_row : (fun o : Fin 256 => val_main_v13 (F := Ideal) x1 x2 x4 x5 x6 x7 x8 (ix2 n o)) = mlp0 (aW x4 x5 x6 x7 x8 x9 x10 x11 x12 x13) (sN x1 n) (vN x2 n) := by
  funext o
  unfold mlp0
  rw [← v9_row x1 x2 x4 x5 x6 x7 x8 x9 x10 x11 x12 x13 n]
  unfold dense
  rw [val_main_v13_apply, val_main_v10_apply, val_main_v12_apply, val_main_v11_apply, Ideal.addf_def]
  refine congrArg₂ (· + ·) (Finset.sum_congr rfl fun k _ => ?_) ?_
  · have el : lidx_main_v10 (ix2 n o) k = ix2 n k := funext fun a => Fin.ext (by
      match a with
      | ⟨0, _⟩ => rfl
      | ⟨1, _⟩ => rfl)
    have er : ridx_main_v10 (ix2 n o) k = ix2 k o := funext fun a => Fin.ext (by
      match a with
      | ⟨0, _⟩ => rfl
      | ⟨1, _⟩ => rfl)
    rw [el, er]
    rfl
  · exact congrArg x8 (funext fun a => Fin.ext (by
      match a with
      | ⟨0, _⟩ => rfl))

end Cert.ReferenceIdeal.Rows

end
-- ==== Proof.RefRowsB.lean ====
/-
  The host program's second gated block, read at node n, over the first block's values: the gated vector rows, the
  scalar part after the sigmoid-weighted unit, and the gated rows through the second matrix.
-/
import proofs.«112560_j86973087744435_1_alg».proof.Proof.RefRowsA
import Idealize.ShloMosaic.Lib.IdealHost

noncomputable section

namespace Cert.ReferenceIdeal.Rows

open Idealize.ShloMosaic Idealize.ShloMosaic.ValueIdx Cert.ReferenceIdeal
open Cert.NodeSpec Cert.LibDenseRows
open Cert.ReferenceIdeal.ReadP

variable (x0 : (⟨S131072x3, .f32⟩ : BufTy).Contents (Elt Ideal)) (x1 : (⟨S131072x256, .f32⟩ : BufTy).Contents (Elt Ideal)) (x2 : (⟨S131072x3x256, .f32⟩ : BufTy).Contents (Elt Ideal))
  (x4 : (⟨S256x384, .f32⟩ : BufTy).Contents (Elt Ideal)) (x5 : (⟨S512x512, .f32⟩ : BufTy).Contents (Elt Ideal)) (x6 : (⟨S512, .f32⟩ : BufTy).Contents (Elt Ideal)) (x7 : (⟨S512x256, .f32⟩ : BufTy).Contents (Elt Ideal))
  (x8 : (⟨S256, .f32⟩ : BufTy).Contents (Elt Ideal)) (x9 : (⟨S128x129, .f32⟩ : BufTy).Contents (Elt Ideal)) (x10 : (⟨S256x256, .f32⟩ : BufTy).Contents (Elt Ideal)) (x11 : (⟨S256, .f32⟩ : BufTy).Contents (Elt Ideal))
  (x12 : (⟨S256x2, .f32⟩ : BufTy).Contents (Elt Ideal)) (x13 : (⟨S2, .f32⟩ : BufTy).Contents (Elt Ideal)) (n : Fin 131072)

/-- Vector row i's second part scaled by the gate. -/
theorem v18_row (i : Fin 3) : (fun o : Fin 128 => val_main_v18 (F := Ideal) x1 x2 x4 x5 x6 x7 x8 (ix3 n i o)) = gated0 (aW x4 x5 x6 x7 x8 x9 x10 x11 x12 x13) (sN x1 n) (vN x2 n) i := by
  funext o
  -- the product of the gate (columns 128 … 255 of the first block's output, repeated over the three rows) and the image's second part
  rw [val_main_v18_apply, val_main_v17_apply, val_main_v16_apply, val_main_v15_apply]
  have e : idx_main_v15 (idx_main_v16 (idx_main_v17 (ix3 n i o))) = ix2 n (⟨128 + o.val, by have := o.isLt; omega⟩ : Fin 256) :=
    funext fun a => Fin.ext (by match a with | ⟨0, _⟩ => rfl | ⟨1, _⟩ => rfl)
  rw [e]
  have h13 := congrFun (v13_row x1 x2 x4 x5 x6 x7 x8 x9 x10 x11 x12 x13 n) ⟨128 + o.val, by have := o.isLt; omega⟩
  have h2 := congrFun (v2_row x2 x4 x5 x6 x7 x8 x9 x10 x11 x12 x13 n i) o
  simp only at h13 h2
  rw [h13, h2]
  rfl

/-- The scalar part after the unit. -/
theorem v19_row : (fun o : Fin 128 => val_main_v19 (F := Ideal) x1 x2 x4 x5 x6 x7 x8 (ix2 n o)) = scal0 (aW x4 x5 x6 x7 x8 x9 x10 x11 x12 x13) (sN x1 n) (vN x2 n) := by
  funext o
  -- x · (1 / (1 + exp (−x))) at x = column o of the first block's output
  rw [val_main_v19_apply, val_main_call2_v5_apply, val_main_call2_v4_apply, val_main_call2_cst_0_apply,
    val_main_call2_v3_apply, val_main_call2_v2_apply, val_main_call2_cst_apply, val_main_call2_v1_apply,
    val_main_call2_v0_apply, val_main_v14_apply]
  have e : idx_main_v14 (ix2 n o) = ix2 n (⟨0 + o.val, by have := o.isLt; omega⟩ : Fin 256) :=
    funext fun a => Fin.ext (by match a with | ⟨0, _⟩ => rfl | ⟨1, _⟩ => exact (Nat.zero_add _).symm)
  rw [e]
  have h13 := congrFun (v13_row x1 x2 x4 x5 x6 x7 x8 x9 x10 x11 x12 x13 n) ⟨0 + o.val, by have := o.isLt; omega⟩
  simp only at h13
  rw [h13]
  -- the word 1 is the number 1, so the quotient is the logistic function as it is defined
  show _ * Ideal.div (Ideal.ofBits .f32 0x3F800000#32) (Ideal.ofBits .f32 0x3F800000#32 + Ideal.exp (- _)) = _ * Ideal.div 1 (1 + Ideal.exp (- _))
  rw [Ideal.ofBits_one_f32]
  rfl

/-- Gated vector row i through the second matrix. -/
theorem v20_row (i : Fin 3) : (fun o : Fin 129 => val_main_v20 (F := Ideal) x1 x2 x4 x5 x6 x7 x8 x9 (ix3 n i o)) = img1 (aW x4 x5 x6 x7 x8 x9 x10 x11 x12 x13) (sN x1 n) (vN x2 n) i := by
  funext o
  -- the sum over the 128 gated entries of row i times column o of the second matrix
  rw [val_main_v20_apply]
  unfold img1 proj
  refine Finset.sum_congr rfl fun k _ => ?_
  have el : lidx_main_v20 (ix3 n i o) k = ix3 n i k :=
    funext fun a => Fin.ext (by match a with | ⟨0, _⟩ => rfl | ⟨1, _⟩ => rfl | ⟨2, _⟩ => rfl)
  have er : ridx_main_v20 (ix3 n i o) k = ix2 k o :=
    funext fun a => Fin.ext (by match a with | ⟨0, _⟩ => rfl | ⟨1, _⟩ => rfl)
  rw [el, er]
  have h18 := congrFun (v18_row x1 x2 x4 x5 x6 x7 x8 x9 x10 x11 x12 x13 n i) k
  simp only at h18
  rw [h18]
  rfl

end Cert.ReferenceIdeal.Rows

end
-- ==== Proof.RefRowsC.lean ====
/-
  The host program's second gated block, continued, and the dipole, read at node n: the second lengths, the second
  block's two dense layers, and the dipole.
-/
import proofs.«112560_j86973087744435_1_alg».proof.Proof.RefRowsB

noncomputable section

namespace Cert.ReferenceIdeal.Rows

open Idealize.ShloMosaic Idealize.ShloMosaic.ValueIdx Cert.ReferenceIdeal
open Cert.NodeSpec Cert.LibDenseRows
open Cert.ReferenceIdeal.ReadP

variable (x0 : (⟨S131072x3, .f32⟩ : BufTy).Contents (Elt Ideal)) (x1 : (⟨S131072x256, .f32⟩ : BufTy).Contents (Elt Ideal)) (x2 : (⟨S131072x3x256, .f32⟩ : BufTy).Contents (Elt Ideal))
  (x4 : (⟨S256x384, .f32⟩ : BufTy).Contents (Elt Ideal)) (x5 : (⟨S512x512, .f32⟩ : BufTy).Contents (Elt Ideal)) (x6 : (⟨S512, .f32⟩ : BufTy).Contents (Elt Ideal)) (x7 : (⟨S512x256, .f32⟩ : BufTy).Contents (Elt Ideal))
  (x8 : (⟨S256, .f32⟩ : BufTy).Contents (Elt Ideal)) (x9 : (⟨S128x129, .f32⟩ : BufTy).Contents (Elt Ideal)) (x10 : (⟨S256x256, .f32⟩ : BufTy).Contents (Elt Ideal)) (x11 : (⟨S256, .f32⟩ : BufTy).Contents (Elt Ideal))
  (x12 : (⟨S256x2, .f32⟩ : BufTy).Contents (Elt Ideal)) (x13 : (⟨S2, .f32⟩ : BufTy).Contents (Elt Ideal)) (n : Fin 131072)

/-! ## Two blocks set side by side -/

/-- Two blocks set side by side, read left of the seam: the first block at the same place. -/
theorem sideBySide_left {α : Type} {m a b c : ℕ} (y₁ : (Sh2 m a).Idx → α) (y₂ : (Sh2 m b).Idx → α)
    (h : Shape.Concatenates [Sh2 m a, Sh2 m b] (Sh2 m c) 1) (p : Fin m) (o : Fin c) (ho : o.val < a) :
    concatenate (Sh2 m c) 1 [⟨Sh2 m a, y₁⟩, ⟨Sh2 m b, y₂⟩] h (ix2 p o) = y₁ (ix2 p ⟨o.val, ho⟩) :=
  concatenate_pair_apply_left 1 y₁ y₂ h (ix2 p o) rfl (ix2 p ⟨o.val, ho⟩) (fun d => by
    match d with
    | ⟨0, _⟩ => rfl
    | ⟨1, _⟩ => rfl)

/-- Two blocks set side by side, read right of the seam: the second block, the first block's width to the left. -/
theorem sideBySide_right {α : Type} {m a b c : ℕ} (y₁ : (Sh2 m a).Idx → α) (y₂ : (Sh2 m b).Idx → α)
    (h : Shape.Concatenates [Sh2 m a, Sh2 m b] (Sh2 m c) 1) (p : Fin m) (o : Fin c) (ho : a ≤ o.val) (hb : o.val - a < b) :
    concatenate (Sh2 m c) 1 [⟨Sh2 m a, y₁⟩, ⟨Sh2 m b, y₂⟩] h (ix2 p o) = y₂ (ix2 p ⟨o.val - a, hb⟩) :=
  concatenate_pair_apply_right 1 y₁ y₂ h (ix2 p o) rfl rfl (ix2 p ⟨o.val - a, hb⟩) (fun d hd => by
    match d with
    | ⟨0, _⟩ => rfl
    | ⟨1, _⟩ => exact absurd rfl hd) (by show (o.val - a) + a = o.val; omega)

/-! ## The second lengths -/

/-- The lengths of the three second first-parts. -/
theorem v23_row : (fun f : Fin 128 => val_main_v23 (F := Ideal) x1 x2 x4 x5 x6 x7 x8 x9 (ix2 n f)) = len1 (aW x4 x5 x6 x7 x8 x9 x10 x11 x12 x13) (sN x1 n) (vN x2 n) := by
  funext f
  rw [val_main_v23_apply, val_main_call3_v1_apply]
  unfold len1 norm3
  show Ideal.sqrt (zeroW + ∑ k : Fin 3, _) = Ideal.sqrt (zeroW + ∑ i : Fin 3, _)
  refine congrArg (fun t => Ideal.sqrt (zeroW + t)) (Finset.sum_congr rfl fun k _ => ?_)
  rw [val_main_call3_v0_apply, val_main_v21_apply]
  have hk : idx_main_v21 (idx_main_call3_v1 (ix2 n f) k) = ix3 n k ⟨0 + f.val, by have := f.isLt; omega⟩ :=
    funext fun a => Fin.ext (by
      match a with
      | ⟨0, _⟩ => rfl
      | ⟨1, _⟩ => rfl
      | ⟨2, _⟩ => exact (Nat.zero_add _).symm)
  rw [hk]
  have h20 := congrFun (v20_row x1 x2 x4 x5 x6 x7 x8 x9 x10 x11 x12 x13 n k) ⟨0 + f.val, by have := f.isLt; omega⟩
  exact congrArg₂ (· * ·) h20 h20

/-! ## The second block's two dense layers -/

/-- The second block's two dense layers. -/
theorem v33_row : (fun o : Fin 2 => val_main_v33 (F := Ideal) x1 x2 x4 x5 x6 x7 x8 x9 x10 x11 x12 x13 (ix2 n o)) = mlp1 (aW x4 x5 x6 x7 x8 x9 x10 x11 x12 x13) (sN x1 n) (vN x2 n) := by
  -- the scalar part after the unit followed by the second lengths, along row n
  have h24 : (fun c : Fin 256 => val_main_v24 (F := Ideal) x1 x2 x4 x5 x6 x7 x8 x9 (ix2 n c))
      = join (by rfl : 128 + 128 = 256) (scal0 (aW x4 x5 x6 x7 x8 x9 x10 x11 x12 x13) (sN x1 n) (vN x2 n)) (len1 (aW x4 x5 x6 x7 x8 x9 x10 x11 x12 x13) (sN x1 n) (vN x2 n)) := by
    funext c
    unfold val_main_v24 join
    by_cases h : c.val < 128
    · rw [dif_pos h]
      exact (sideBySide_left _ _ _ n c h).trans
        (congrFun (v19_row x1 x2 x4 x5 x6 x7 x8 x9 x10 x11 x12 x13 n) ⟨c.val, h⟩)
    · rw [dif_neg h]
      have hc : c.val - 128 < 128 := by have := c.isLt; omega
      exact (sideBySide_right _ _ _ n c (by omega) hc).trans
        (congrFun (v23_row x1 x2 x4 x5 x6 x7 x8 x9 x10 x11 x12 x13 n) ⟨c.val - 128, hc⟩)
  -- the first layer, before the unit, along row n
  have h28 : (fun c : Fin 256 => val_main_v28 (F := Ideal) x1 x2 x4 x5 x6 x7 x8 x9 x10 x11 (ix2 n c))
      = dense (join (by rfl : 128 + 128 = 256) (scal0 (aW x4 x5 x6 x7 x8 x9 x10 x11 x12 x13) (sN x1 n) (vN x2 n)) (len1 (aW x4 x5 x6 x7 x8 x9 x10 x11 x12 x13) (sN x1 n) (vN x2 n)))
          (aW x4 x5 x6 x7 x8 x9 x10 x11 x12 x13).W11 (aW x4 x5 x6 x7 x8 x9 x10 x11 x12 x13).b11 := by
    funext c
    rw [val_main_v28_apply, val_main_v25_apply, val_main_v27_apply, val_main_v26_apply]
    refine congrArg₂ (· + ·) (Finset.sum_congr rfl fun k _ => ?_) ?_
    · have e1 : lidx_main_v25 (ix2 n c) k = ix2 n k := funext fun a => Fin.ext (by
        match a with
        | ⟨0, _⟩ => rfl
        | ⟨1, _⟩ => rfl)
      have e2 : ridx_main_v25 (ix2 n c) k = ix2 k c := funext fun a => Fin.ext (by
        match a with
        | ⟨0, _⟩ => rfl
        | ⟨1, _⟩ => rfl)
      rw [e1, e2]
      exact congrArg (· * x10 (ix2 k c)) (congrFun h24 k)
    · exact congrArg x11 (funext fun a => Fin.ext (by
        match a with
        | ⟨0, _⟩ => rfl))
  funext o
  rw [val_main_v33_apply, val_main_v30_apply, val_main_v32_apply, val_main_v31_apply]
  unfold mlp1
  refine congrArg₂ (· + ·) (Finset.sum_congr rfl fun k _ => ?_) ?_
  · have e1 : lidx_main_v30 (ix2 n o) k = ix2 n k := funext fun a => Fin.ext (by
      match a with
      | ⟨0, _⟩ => rfl
      | ⟨1, _⟩ => rfl)
    have e2 : ridx_main_v30 (ix2 n o) k = ix2 k o := funext fun a => Fin.ext (by
      match a with
      | ⟨0, _⟩ => rfl
      | ⟨1, _⟩ => rfl)
    rw [e1, e2]
    refine congrArg (· * x12 (ix2 k o)) ?_
    -- the unit, spelt x · (1 / (1 + exp (−x))) with the word of one
    rw [val_main_v29_apply, val_main_call4_v5_apply, val_main_call4_v4_apply, val_main_call4_cst_0_apply,
      val_main_call4_v3_apply, val_main_call4_v2_apply, val_main_call4_cst_apply, val_main_call4_v1_apply,
      val_main_call4_v0_apply]
    show val_main_v28 (F := Ideal) x1 x2 x4 x5 x6 x7 x8 x9 x10 x11 (ix2 n k)
        * Ideal.div (Ideal.ofBits .f32 0x3F800000#32)
            (Ideal.ofBits .f32 0x3F800000#32 + Ideal.exp (-(val_main_v28 (F := Ideal) x1 x2 x4 x5 x6 x7 x8 x9 x10 x11 (ix2 n k)))) = _
    rw [Ideal.ofBits_one_f32]
    exact congrArg (fun t => t * Ideal.logistic t) (congrFun h28 k)
  · exact congrArg x13 (funext fun a => Fin.ext (by
      match a with
      | ⟨0, _⟩ => rfl))

/-! ## The dipole -/

/-- The host program's node array at (n, j): node n's dipole, entry j. -/
theorem v46_apply (j : Fin 3) :
    val_main_v46 (F := Ideal) x0 x1 x2 x4 x5 x6 x7 x8 x9 x10 x11 x12 x13 (ix2 n j) = nodeAt (aW x4 x5 x6 x7 x8 x9 x10 x11 x12 x13) x1 x2 x0 n j := by
  have h33 := v33_row x1 x2 x4 x5 x6 x7 x8 x9 x10 x11 x12 x13 n
  rw [val_main_v46_apply, val_main_v39_apply, val_main_v38_apply, val_main_v37_apply, val_main_v36_apply,
    val_main_v35_apply, val_main_v22_apply, val_main_v45_apply, val_main_v44_apply, val_main_v43_apply,
    val_main_v41_apply, val_main_v34_apply, val_main_v40_apply, val_main_cst_apply, val_main_v42_apply,
    val_main_cst_0_apply]
  -- the gate is entry 1 of the second block's result at node n
  have e1 : idx_main_v35 (idx_main_v36 (idx_main_v37 (idx_main_v39 (ix2 n j)))) = ix2 n (1 : Fin 2) :=
    funext fun a => Fin.ext (by
      match a with
      | ⟨0, _⟩ => show (n.val * 3 + j.val) / 3 = n.val; have := j.isLt; omega
      | ⟨1, _⟩ => rfl)
  -- the last entry (128) of second image j at node n
  have e2 : idx_main_v22 (idx_main_v39 (ix2 n j)) = ix3 n j (⟨128, by omega⟩ : Fin 129) :=
    funext fun a => Fin.ext (by
      match a with
      | ⟨0, _⟩ => show (n.val * 3 + j.val) / 3 = n.val; have := j.isLt; omega
      | ⟨1, _⟩ => show (n.val * 3 + j.val) / 1 % 3 = j.val; have := j.isLt; omega
      | ⟨2, _⟩ => rfl)
  -- the scalar is entry 0
  have e3 : idx_main_v34 (idx_main_v44 (ix2 n j)) = ix2 n (0 : Fin 2) :=
    funext fun a => Fin.ext (by
      match a with
      | ⟨0, _⟩ => rfl
      | ⟨1, _⟩ => rfl)
  rw [e1, e2, e3]
  unfold nodeAt nodeMu
  exact congrArg₂ (· + ·)
    (congrArg₂ (· * ·) (congrFun h33 1) (congrFun (v20_row x1 x2 x4 x5 x6 x7 x8 x9 x10 x11 x12 x13 n j) ⟨128, by omega⟩))
    (congrArg (fun t => (t * oneW + zeroW) * x0 (ix2 n j)) (congrFun h33 0))

end Cert.ReferenceIdeal.Rows

end
-- ==== Proof.RefValue.lean ====
/-
  What the host program leaves in its result: its node array is every node's dipole, and the lines after it are the
  same tail the kernel's program applies.
-/
import proofs.«112560_j86973087744435_1_alg».proof.Proof.RefRowsC
import proofs.«112560_j86973087744435_1_alg».proof.Proof.KernelValue
import proofs.«112560_j86973087744435_1_alg».proof.Proof.RefRun

noncomputable section

namespace Cert.ReferenceIdeal.NodeValue

open Idealize.ShloMosaic Idealize.ShloMosaic.TcCoe Idealize.SL.Sem Idealize.ShloMosaic.ValueIdx
open Cert.ReferenceIdeal Cert.ReferenceIdeal.Gen Cert.ReferenceIdeal.Rows Cert.ReferenceIdeal.ReadP Cert.NodeSpec

/-- The host lines after the node array, as one function of the node array and the graph index array: the dipoles
    summed per graph, the Euclidean length of each graph's dipole, minus the zero word, over the one word. -/
def tail (nodesArr : (⟨S131072x3, .f32⟩ : BufTy).Contents (Elt Ideal)) (gidx : (⟨S131072, .i32⟩ : BufTy).Contents (Elt Ideal)) : (⟨S2048x1, .f32⟩ : BufTy).Contents (Elt Ideal) :=
  let g : (⟨S2048x3, .f32⟩ : BufTy).Contents (Elt Ideal) :=
    Host.scatterAdd (F := Ideal) scatter_S2048x3_S131072x1_S131072x3_1_0_0_1
      (broadcastInDim S2048x3 ![] bcast_S_S2048x3 (constant (F := Ideal) S_ .f32 0x00000000#32))
      (broadcastInDim S131072x1 ![0] bcast_S131072_S131072x1_0 gidx) nodesArr
  Host.divf (F := Ideal)
    (subf (Host.sqrt (F := Ideal) (broadcastInDim S2048x1 ![0] bcast_S2048_S2048x1_0
        (Host.reduceAdd (F := Ideal) (mulf g g) (constant (F := Ideal) S_ .f32 0x00000000#32) reducesTo_S2048x3_S2048_d1 h_S_)))
      (broadcastInDim S2048x1 ![] bcast_S_S2048x1 (constant (F := Ideal) S_ .f32 0x00000000#32)))
    (broadcastInDim S2048x1 ![] bcast_S_S2048x1 (constant (F := Ideal) S_ .f32 0x3F800000#32))

/-- The two programs apply one tail: the same operations over the same dimension records. -/
theorem tail_eq_kernel (nodesArr : (⟨S131072x3, .f32⟩ : BufTy).Contents (Elt Ideal)) (gidx : (⟨S131072, .i32⟩ : BufTy).Contents (Elt Ideal)) :
    tail nodesArr gidx = Cert.KernelIdeal.NodeValue.tail nodesArr gidx := rfl

variable (x0 : (⟨S131072x3, .f32⟩ : BufTy).Contents (Elt Ideal)) (x1 : (⟨S131072x256, .f32⟩ : BufTy).Contents (Elt Ideal)) (x2 : (⟨S131072x3x256, .f32⟩ : BufTy).Contents (Elt Ideal)) (x3 : (⟨S131072, .i32⟩ : BufTy).Contents (Elt Ideal))
  (x4 : (⟨S256x384, .f32⟩ : BufTy).Contents (Elt Ideal)) (x5 : (⟨S512x512, .f32⟩ : BufTy).Contents (Elt Ideal)) (x6 : (⟨S512, .f32⟩ : BufTy).Contents (Elt Ideal)) (x7 : (⟨S512x256, .f32⟩ : BufTy).Contents (Elt Ideal))
  (x8 : (⟨S256, .f32⟩ : BufTy).Contents (Elt Ideal)) (x9 : (⟨S128x129, .f32⟩ : BufTy).Contents (Elt Ideal)) (x10 : (⟨S256x256, .f32⟩ : BufTy).Contents (Elt Ideal)) (x11 : (⟨S256, .f32⟩ : BufTy).Contents (Elt Ideal))
  (x12 : (⟨S256x2, .f32⟩ : BufTy).Contents (Elt Ideal)) (x13 : (⟨S2, .f32⟩ : BufTy).Contents (Elt Ideal))

/-- The host program's node array is every node's dipole. -/
theorem v46_eq : val_main_v46 (F := Ideal) x0 x1 x2 x4 x5 x6 x7 x8 x9 x10 x11 x12 x13
    = nodeArr (aW x4 x5 x6 x7 x8 x9 x10 x11 x12 x13) x1 x2 x0 := by
  funext i
  obtain ⟨n, j, rfl⟩ : ∃ (n : Fin 131072) (j : Fin 3), i = ix2 n j := ⟨i 0, i 1, eq_ix2 i⟩
  exact v46_apply x0 x1 x2 x4 x5 x6 x7 x8 x9 x10 x11 x12 x13 n j

/-- The host program's result is the tail of its node array. -/
theorem v54_eq : val_main_v54 (F := Ideal) x0 x1 x2 x3 x4 x5 x6 x7 x8 x9 x10 x11 x12 x13
    = tail (val_main_v46 (F := Ideal) x0 x1 x2 x4 x5 x6 x7 x8 x9 x10 x11 x12 x13) x3 := by
  unfold val_main_v54 val_main_v52 val_main_v53 val_main_v51 val_main_v50 val_main_call5_v2 val_main_call5_v1 val_main_call5_v0
    val_main_call5_cst val_main_v49 val_main_v48 val_main_v47 val_main_cst_1 val_main_cst_2 val_main_cst_3 tail
  rfl

variable (m : (ℓ : Loc nD τ sig) → Buf (Elt Ideal) ℓ) (ρ : Dev nD → PrngReg)

/-- The host program, run: its result is the tail of every node's dipole, and its arguments end as launched. -/
theorem run : θ_run defs (onTc (τ := τ) (main (F := Ideal))) ⟨m, fun _ => 0, ρ⟩ fun r => ∀ c : Dev nD,
      r.2.mem ((c.tc : Thread nD τ).loc main_v54)
        = tail (nodeArr (aW (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg1)) (m ((c.tc : Thread nD τ).loc main_arg2)) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (by rw [val_main_v54_eq, v54_eq, v46_eq]), (h c).2⟩)
    (Cert.ReferenceIdeal.ValueP.run (F := Ideal) m ρ)

end Cert.ReferenceIdeal.NodeValue

end
-- ==== Proof.lean ====
/-
  The certificate. Both programs compute, node by node, the same dipole (one function of the node's own rows and of
  the weights, over the extended reals, where a change of float format changes nothing, a block product into a zero
  accumulator and the host's dot_general are one sum, the kernel's sigmoid and the host's spelt-out 1 / (1 + e^(−x))
  are one function, and the two orders of adding three squares agree), and then apply the same host lines to the node
  array: the dipoles summed per graph, each graph's length, minus zero, over one. The kernel's node array is read off
  its frame run block by block; the host program's off its run, operation by operation. No law used needs finite
  inputs, so the precondition is never opened.
-/
import proofs.«112560_j86973087744435_1_alg».proof.Defs
import proofs.«112560_j86973087744435_1_alg».proof.Proof.Gen.Kernel
import proofs.«112560_j86973087744435_1_alg».proof.Proof.Gen.Kernel.Skeleton
import proofs.«112560_j86973087744435_1_alg».proof.Proof.Gen.Kernel.Launch
import proofs.«112560_j86973087744435_1_alg».proof.Proof.Gen.Kernel.Points
import proofs.«112560_j86973087744435_1_alg».proof.Proof.Gen.Kernel.Frame
import proofs.«112560_j86973087744435_1_alg».proof.Proof.Gen.KernelIdeal
import proofs.«112560_j86973087744435_1_alg».proof.Proof.Gen.KernelIdeal.Skeleton
import proofs.«112560_j86973087744435_1_alg».proof.Proof.Gen.KernelIdeal.Launch
import proofs.«112560_j86973087744435_1_alg».proof.Proof.Gen.KernelIdeal.Points
import proofs.«112560_j86973087744435_1_alg».proof.Proof.Gen.KernelIdeal.Frame
import proofs.«112560_j86973087744435_1_alg».proof.Proof.Gen.ReferenceIdeal
import proofs.«112560_j86973087744435_1_alg».proof.Proof.Gen.Pre_finite_inputs
import proofs.«112560_j86973087744435_1_alg».proof.Proof.KernelValue
import proofs.«112560_j86973087744435_1_alg».proof.Proof.RefValue
import Idealize.ShloMosaic.Adequacy
import Idealize.ShloMosaic.Init

noncomputable section

namespace Cert.Proof

open Idealize.ShloMosaic Idealize.SL.Sem

namespace NodeClaims

/-- The kernel's program terminates without a fault and leaves its arguments as launched. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- So does the host program: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories that agree on the arguments both programs end with the tail of every node's dipole. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.NodeValue.tail (Cert.KernelIdeal.NodeValue.nodes m c)
      (m ((c.tc : Thread Cert.KernelIdeal.nD Cert.KernelIdeal.τ).loc Cert.KernelIdeal.main_arg3)),
    Cert.KernelIdeal.NodeValue.run m ρ, ?_⟩
  refine (θ_run Cert.ReferenceIdeal.defs _ _).mono (fun _ h c => ⟨(h c).1.trans ?_, (h c).2⟩)
    (Cert.ReferenceIdeal.NodeValue.run m' ρ')
  obtain ⟨h0, h1, h2, h3, h4, h5, h6, h7, h8, h9, h10, h11, h12, h13⟩ := hagree c
  rw [h0, h1, h2, h3, h4, h5, h6, h7, h8, h9, h10, h11, h12, h13, Cert.ReferenceIdeal.NodeValue.tail_eq_kernel]

end NodeClaims

theorem claim : Cert.Claim := ⟨Cert.Kernel.Gen.facts, Cert.KernelIdeal.Gen.facts, Cert.ReferenceIdeal.Gen.facts, Cert.Pre_finite_inputs.Gen.facts,
  NodeClaims.frame_k, NodeClaims.frame_ki, NodeClaims.frame_ri, trivial, NodeClaims.algebraic⟩

end Cert.Proof

end
